-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S512x2048 : Shape := ⟨2, ![512, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S512x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S512x2048 : Shape := ⟨2, ![512, 2048]⟩
abbrev S2048 : Shape := ⟨1, ![2048]⟩
abbrev S512x512 : Shape := ⟨2, ![512, 512]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048, .i32⟩
  | .hbm, ⟨4, _⟩ => ⟨S2048, .i1⟩
  | .hbm, ⟨5, _⟩ => ⟨S2048, .i32⟩
  | .hbm, ⟨6, _⟩ => ⟨S2048, .i1⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x2048, .f32⟩
  | .hbm, ⟨15, _⟩ => ⟨S512x512, .f32⟩
  | .hbm, ⟨16, _⟩ => ⟨S512x2048, .f32⟩
  | .hbm, ⟨17, _⟩ => ⟨S512x512, .f32⟩
  | .hbm, ⟨18, _⟩ => ⟨S512x2048, .f32⟩
  | .hbm, ⟨19, _⟩ => ⟨S512x512, .f32⟩
  | .hbm, ⟨20, _⟩ => ⟨S512x2048, .f32⟩
  | .hbm, ⟨21, _⟩ => ⟨S2048x2048, .f32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x2048, .f32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x2048, .f32⟩
  | .hbm, ⟨34, _⟩ => ⟨S8192x2048, .bf16⟩
  | .hbm, ⟨35, _⟩ => ⟨S2048x2048, .bf16⟩
  | .hbm, ⟨36, _⟩ => ⟨S1x2048, .f32⟩
  | .hbm, ⟨37, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S512x2048_S512x512_0_0 : S512x2048.Slices ![0, 0] S512x512
  slices_S512x2048_S512x512_0_512 : S512x2048.Slices ![0, 512] S512x512
  slices_S512x2048_S512x512_0_1024 : S512x2048.Slices ![0, 1024] S512x512
  slices_S512x2048_S512x512_0_1536 : S512x2048.Slices ![0, 1536] S512x512
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  gather_S2048x2048_S2048x1_S2048x2048_1_0_n_n_0_1_12048_wf : GatherDims.WF S2048x2048 S2048x1 S2048x2048 [1] [0] [] [0] [] 1 ![1, 2048]
  gather_S2048x2048_S2048x1_S2048x2048_0_1_n_n_1_1_20481_wf : GatherDims.WF S2048x2048 S2048x1 S2048x2048 [0] [1] [] [1] [] 1 ![2048, 1]
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x2048.size a
  hwx0_0 : ∀ i : grid0.Coords, EltTy.bits .bf16 = 32 ∨ (Rect.block (s := S8192x2048) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf
def gather_S2048x2048_S2048x1_S2048x2048_0_1_n_n_1_1_20481 : GatherDims S2048x2048 S2048x1 S2048x2048 where
  offsetDims := [0]
  collapsedSliceDims := [1]
  operandBatchingDims := []
  startIndicesBatchingDims := []
  startIndexMap := [1]
  indexVectorDim := 1
  sliceSizes := ![2048, 1]
  wf := gather_S2048x2048_S2048x1_S2048x2048_0_1_n_n_1_1_20481_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v25) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S512x2048 : Shape := ⟨2, ![512, 2048]⟩
abbrev S2048 : Shape := ⟨1, ![2048]⟩
abbrev S512x512 : Shape := ⟨2, ![512, 512]⟩
abbrev S2048x2048 : Shape := ⟨2, ![2048, 2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048, .i32⟩
  | .hbm, ⟨4, _⟩ => ⟨S2048, .i1⟩
  | .hbm, ⟨5, _⟩ => ⟨S2048, .i32⟩
  | .hbm, ⟨6, _⟩ => ⟨S2048, .i1⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x2048, .f32⟩
  | .hbm, ⟨15, _⟩ => ⟨S512x512, .f32⟩
  | .hbm, ⟨16, _⟩ => ⟨S512x2048, .f32⟩
  | .hbm, ⟨17, _⟩ => ⟨S512x512, .f32⟩
  | .hbm, ⟨18, _⟩ => ⟨S512x2048, .f32⟩
  | .hbm, ⟨19, _⟩ => ⟨S512x512, .f32⟩
  | .hbm, ⟨20, _⟩ => ⟨S512x2048, .f32⟩
  | .hbm, ⟨21, _⟩ => ⟨S2048x2048, .f32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x2048, .f32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S2048x1, .i32⟩
  | .hbm, ⟨33, _⟩ => ⟨S2048x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  slices_S512x2048_S512x512_0_0 : S512x2048.Slices ![0, 0] S512x512
  slices_S512x2048_S512x512_0_512 : S512x2048.Slices ![0, 512] S512x512
  slices_S512x2048_S512x512_0_1024 : S512x2048.Slices ![0, 1024] S512x512
  slices_S512x2048_S512x512_0_1536 : S512x2048.Slices ![0, 1536] S512x512
  concatenates_S512x512_S512x512_S512x512_S512x512_S512x2048_d1 : Shape.Concatenates [S512x512, S512x512, S512x512, S512x512] S512x2048 1
  concatenates_S512x2048_S512x2048_S512x2048_S512x2048_S2048x2048_d0 : Shape.Concatenates [S512x2048, S512x2048, S512x2048, S512x2048] S2048x2048 0
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  gather_S2048x2048_S2048x1_S2048x2048_1_0_n_n_0_1_12048_wf : GatherDims.WF S2048x2048 S2048x1 S2048x2048 [1] [0] [] [0] [] 1 ![1, 2048]
  gather_S2048x2048_S2048x1_S2048x2048_0_1_n_n_1_1_20481_wf : GatherDims.WF S2048x2048 S2048x1 S2048x2048 [0] [1] [] [1] [] 1 ![2048, 1]
  dot_S8192x2048_S2048x2048_S8192x2048_1_0_0_1_n_n_wf : DotDims.WF S8192x2048 S2048x2048 S8192x2048 [1] [0] [0] [1] [] []

variable [Facts₀]

def gather_S2048x2048_S2048x1_S2048x2048_1_0_n_n_0_1_12048 : GatherDims S2048x2048 S2048x1 S2048x2048 where
  offsetDims := [1]
  collapsedSliceDims := [0]
  operandBatchingDims := []
  startIndicesBatchingDims := []
  startIndexMap := [0]
  indexVectorDim := 1
  sliceSizes := ![1, 2048]
  wf := gather_S2048x2048_S2048x1_S2048x2048_1_0_n_n_0_1_12048_wf
def gather_S2048x2048_S2048x1_S2048x2048_0_1_n_n_1_1_20481 : GatherDims S2048x2048 S2048x1 S2048x2048 where
  offsetDims := [0]
  collapsedSliceDims := [1]
  operandBatchingDims := []
  startIndicesBatchingDims := []
  startIndexMap := [1]
  indexVectorDim := 1
  sliceSizes := ![2048, 1]
  wf := gather_S2048x2048_S2048x1_S2048x2048_0_1_n_n_1_1_20481_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.BitsKit.lean ====
/- The region of the matmul-with-bias kernel seen from @main: the buffers' contents when the region is entered
   (after the thirty-four host operations that build the permuted Hamilton matrix, narrow the two matrix operands and
   reshape the bias), that @main is those operations followed by the region, that none of them writes an argument
   array, each window's block of its array at a grid point, and the frame claim's post read off a run that ends with
   every array of the pipeline at what the proof data computes. Then what the three cases of the body share: the two
   branch conditions in closed form over the 16 x 4 grid (the reduction index k is the point's position modulo 4:
   k = 0 resets the accumulator, k = 3 adds the bias and stores the output block), where the output window is idle,
   and the staging and scratch memrefs the body is called with. -/
import proofs.«109850_j88905823027438_1_alg».proof.Proof.Gen.Kernel.Launch
import proofs.«109850_j88905823027438_1_alg».proof.Proof.Gen.Kernel.Skeleton
import proofs.«109850_j88905823027438_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations ahead of it. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation ahead of the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation ahead of the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation ahead of the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, fetched there or
    not, for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every grid point, fetched there or
    not, for any proof data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every grid point, fetched there or
    not, for any proof data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The three argument arrays are no window's array, so a run that ends with every buffer outside the pipeline at its
    region-entry contents ends with them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's two branch conditions -/

/-- The first branch (reset the accumulator): the reduction coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (add the bias, store the output block): the reduction coordinate is 3, the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step nothing is stored into the output window, -/
theorem idleAt0_3 : ∀ t : Fin cfg0.N, ¬cond0_1 (grid0.coords t) → cfg0.idle 3 (grid0.coords t) = true := by decide +kernel
/-- and its block is not written back there; -/
theorem noFlush0_3 : ∀ t : Fin cfg0.N, ¬cond0_1 (grid0.coords t) → (cfg0.win 3).flush t = false := by decide +kernel
/-- at the last reduction step the window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S512x2048 .f32 := (Memref.whole cc0_stg3_0 : Memref sig .tc .vmem S512x2048 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x2048 .f32 := Memref.whole cc0_scratch0
abbrev VS0_0 : View sig .tc .vmem S512x2048 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BitsRuns.lean ====
/- The matmul-with-bias body run symbolically in each of the three cases its two branches leave on the 16 x 4 grid:
   the first reduction step (reset, then accumulate), a middle step (accumulate), the last step (accumulate, then add
   the bias and store the output block). Each run is over whole memrefs and names what it stored as pieces. -/
import proofs.«109850_j88905823027438_1_alg».proof.Proof.BitsKit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE FIRST REDUCTION STEP (k = 0). On whole memrefs — the three input blocks at their contents, the output's buffer at
    contents handed back untouched, the accumulator at anything — the body zeroes the accumulator, adds the product of
    the two matrix blocks to it, and runs to the continuation holding the inputs and the output's buffer as they were and
    the accumulator with its stores written (the pieces, last first, are what the run finds). -/
noncomputable def kernelRun0_A (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A MIDDLE REDUCTION STEP (k = 1, 2). The accumulator is handed over at the contents the point before left; the body
    adds the product of the two matrix blocks to it and stores nothing else. -/
noncomputable def kernelRun0_B (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST REDUCTION STEP (k = 3). The accumulator is handed over at the contents the point before left and the
    output's buffer at anything; the body adds the product of the two matrix blocks to the accumulator, then stores the
    accumulator plus the bias row, repeated down the rows, into the output's buffer. -/
noncomputable def kernelRun0_C (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BitsFrame.lean ====
/- The frame of the matmul-with-bias program: what the accumulator and the output's staging buffer hold after each of
   the 64 grid points (by recursion on the point: a point with k = 0 starts the accumulator afresh, every other point
   continues from what the point before left; only a point with k = 3 stores the output block), the pipeline's proof
   data over that, the body obligation at a generic point by cases on k, and the run of @main it gives: every weakly
   fair execution terminates, the output array ends at what the proof data computes, and every other buffer outside the
   region's scratch — the three arguments among them — ends as the region found it. -/
import proofs.«109850_j88905823027438_1_alg».proof.Proof.BitsRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a point that stores nothing into the output window its staging buffer is neither written back nor read at the
    next point: a placeholder that nothing consults. -/
def out0_idle : Vec F S512x2048 .f32 := VO0_3.read (Elt F) (VO0_3.writes (Elt F) VO0_3.junk [])

/-- The first step's stores (the zeros, then the sum) cover the accumulator. -/
theorem scover0_A_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) (y : S512x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x2048.size (by sl_kernel_rfl) y

/-- What the first step leaves in the accumulator: its pieces read back. -/
def sout0_A_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) : Vec F S512x2048 .f32 :=
  VS0_0.read (Elt F) (VS0_0.writes (Elt F) VS0_0.junk (kernelRun0_A c i arg2 harg2 arg3 harg3 arg4 harg4 arg5 harg5 arg6 harg6 hc0 hc1 x0 x1 x2).1)

/-- A middle step's one store covers the accumulator. -/
theorem scover0_B_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S512x2048.size (by sl_kernel_rfl) y

/-- What a middle step leaves in the accumulator. -/
def sout0_B_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 hc0 hc1 x0 x1 x2 xs0).1)

/-- The last step's one store into the output's buffer covers it. -/
theorem cover0_C_3 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y

/-- What the last step leaves in the output's staging buffer. -/
def out0_C_3 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) : Vec F S512x2048 .f32 :=
  VO0_3.read (Elt F) (VO0_3.writes (Elt F) VO0_3.junk (kernelRun0_C c i arg2 harg2 arg3 harg3 arg4 harg4 arg5 harg5 arg6 harg6 hc0 hc1 x0 x1 x2 xs0).1)

/-- The last step's one store into the accumulator covers it. -/
theorem scover0_C_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y

/-- What the last step leaves in the accumulator. -/
def sout0_C_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- THE ACCUMULATION: the output's staging buffer and the accumulator after the body at position `n` of the grid's
    row-major order (position n is row block n / 4, reduction step n % 4). -/
def outsAt0 (c : Dev nD) : (n : ℕ) → n < cfg0.N → Vec F S512x2048 .f32 × Vec F S512x2048 .f32
  | 0, hn => (out0_idle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_idle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_idle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a first reduction step. -/
theorem outsAt0_A (c : Dev nD) (t : Fin cfg0.N) (h0 : t.val % 4 = 0) (h1 : ¬t.val % 4 = 3) :
    outsAt0 m c t.val t.isLt = (out0_idle, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a middle reduction step: over what the point before left. -/
theorem outsAt0_B (c : Dev nD) (t : Fin cfg0.N) (h0 : ¬t.val % 4 = 0) (h1 : ¬t.val % 4 = 3) :
    outsAt0 m c t.val t.isLt = (out0_idle, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last reduction step: over what the point before left. -/
theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards it
    holds what the point before left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point. The inputs' memrefs hold their blocks; the point's position modulo 4 says which case it is
    in; the invariant hands the body the accumulator at what the point before left (at anything before the first
    point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have hN : t.val < 64 := lt_of_lt_of_eq t.isLt (show cfg0.N = 64 from N_0)
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    have hΦ : (dats m 0 c).Φ t.castSucc ⊢ iprop(iprop(∃ d, owns (c : Thread nD τ) scM0_0 fullShare d) ∗ (∃ r, prngReg c r)) := by
      rw [PhiS_castSucc m c t]
      by_cases hz : t.val = 0
      · rw [PhiS_zero m c _ _ hz, PhiA0_eq]
      · rw [PhiS_pos m c _ _ hz]
        iintro ⟨HS0, Hg⟩
        isplitl [HS0]; · iexists _; iexact HS0
        iexact Hg
    iintro ⟨HΦ, Ho, ⟨%d0, H0⟩, ⟨%d1, H1⟩, ⟨%d2, H2⟩, ⟨%d3, H3⟩⟩
    ihave ⟨HS0, Hg⟩ := hΦ $$ HΦ
    iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun hz => h0 (by rw [hz])
    rw [PhiS_castSucc m c t, PhiS_pos m c _ _ hz]
    by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      iintro ⟨⟨HS0, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      iintro ⟨⟨HS0, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- From any memory with zero counters every weakly fair execution of @main terminates, and every final state has each
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME, at any instance of the floats: the program runs to the end, faults nowhere, and its three argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Hand

end
-- ==== Proof.IdealKit.lean ====
/- The region of the matmul-with-bias kernel seen from @main: the buffers' contents when the region is entered
   (after the thirty-four host operations that build the permuted Hamilton matrix, narrow the two matrix operands and
   reshape the bias), that @main is those operations followed by the region, that none of them writes an argument
   array, each window's block of its array at a grid point, and the frame claim's post read off a run that ends with
   every array of the pipeline at what the proof data computes. Then what the three cases of the body share: the two
   branch conditions in closed form over the 16 x 4 grid (the reduction index k is the point's position modulo 4:
   k = 0 resets the accumulator, k = 3 adds the bias and stores the output block), where the output window is idle,
   and the staging and scratch memrefs the body is called with. -/
import proofs.«109850_j88905823027438_1_alg».proof.Proof.Gen.KernelIdeal.Launch
import proofs.«109850_j88905823027438_1_alg».proof.Proof.Gen.KernelIdeal.Skeleton
import proofs.«109850_j88905823027438_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations ahead of it. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation ahead of the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation ahead of the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation ahead of the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, fetched there or
    not, for any proof data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block of the array at every grid point, fetched there or
    not, for any proof data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block of the array at every grid point, fetched there or
    not, for any proof data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The three argument arrays are no window's array, so a run that ends with every buffer outside the pipeline at its
    region-entry contents ends with them as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's two branch conditions -/

/-- The first branch (reset the accumulator): the reduction coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (add the bias, store the output block): the reduction coordinate is 3, the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step nothing is stored into the output window, -/
theorem idleAt0_3 : ∀ t : Fin cfg0.N, ¬cond0_1 (grid0.coords t) → cfg0.idle 3 (grid0.coords t) = true := by decide +kernel
/-- and its block is not written back there; -/
theorem noFlush0_3 : ∀ t : Fin cfg0.N, ¬cond0_1 (grid0.coords t) → (cfg0.win 3).flush t = false := by decide +kernel
/-- at the last reduction step the window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S512x2048 .f32 := (Memref.whole cc0_stg3_0 : Memref sig .tc .vmem S512x2048 .f32).view
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x2048 .f32 := Memref.whole cc0_scratch0
abbrev VS0_0 : View sig .tc .vmem S512x2048 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.IdealRuns.lean ====
/- The matmul-with-bias body run symbolically in each of the three cases its two branches leave on the 16 x 4 grid:
   the first reduction step (reset, then accumulate), a middle step (accumulate), the last step (accumulate, then add
   the bias and store the output block). Each run is over whole memrefs and names what it stored as pieces. -/
import proofs.«109850_j88905823027438_1_alg».proof.Proof.IdealKit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE FIRST REDUCTION STEP (k = 0). On whole memrefs — the three input blocks at their contents, the output's buffer at
    contents handed back untouched, the accumulator at anything — the body zeroes the accumulator, adds the product of
    the two matrix blocks to it, and runs to the continuation holding the inputs and the output's buffer as they were and
    the accumulator with its stores written (the pieces, last first, are what the run finds). -/
noncomputable def kernelRun0_A (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A MIDDLE REDUCTION STEP (k = 1, 2). The accumulator is handed over at the contents the point before left; the body
    adds the product of the two matrix blocks to it and stores nothing else. -/
noncomputable def kernelRun0_B (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) :
    { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, fun xi3 E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- THE LAST REDUCTION STEP (k = 3). The accumulator is handed over at the contents the point before left and the
    output's buffer at anything; the body adds the product of the two matrix blocks to the accumulator, then stores the
    accumulator plus the bias row, repeated down the rows, into the output's buffer. -/
noncomputable def kernelRun0_C (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__matmul_bias_kernel i arg2 harg2 arg3 harg3 arg4 harg4 arg5 harg5 arg6 harg6) K } := by
  refine ⟨?_, ?_, fun E K => ?run⟩
  case run =>
    simp only [cc0__matmul_bias_kernel_eq_skeleton]; unfold cc0__matmul_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.IdealFrame.lean ====
/- The frame of the matmul-with-bias program: what the accumulator and the output's staging buffer hold after each of
   the 64 grid points (by recursion on the point: a point with k = 0 starts the accumulator afresh, every other point
   continues from what the point before left; only a point with k = 3 stores the output block), the pipeline's proof
   data over that, the body obligation at a generic point by cases on k, and the run of @main it gives: every weakly
   fair execution terminates, the output array ends at what the proof data computes, and every other buffer outside the
   region's scratch — the three arguments among them — ends as the region found it. -/
import proofs.«109850_j88905823027438_1_alg».proof.Proof.IdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a point that stores nothing into the output window its staging buffer is neither written back nor read at the
    next point: a placeholder that nothing consults. -/
def out0_idle : Vec F S512x2048 .f32 := VO0_3.read (Elt F) (VO0_3.writes (Elt F) VO0_3.junk [])

/-- The first step's stores (the zeros, then the sum) cover the accumulator. -/
theorem scover0_A_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) (y : S512x2048.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S512x2048.size (by sl_kernel_rfl) y

/-- What the first step leaves in the accumulator: its pieces read back. -/
def sout0_A_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) : Vec F S512x2048 .f32 :=
  VS0_0.read (Elt F) (VS0_0.writes (Elt F) VS0_0.junk (kernelRun0_A c i arg2 harg2 arg3 harg3 arg4 harg4 arg5 harg5 arg6 harg6 hc0 hc1 x0 x1 x2).1)

/-- A middle step's one store covers the accumulator. -/
theorem scover0_B_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) (y : S512x2048.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S512x2048.size (by sl_kernel_rfl) y

/-- What a middle step leaves in the accumulator. -/
def sout0_B_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) : Vec F S512x2048 .f32 :=
  VS0_0.read (Elt F) (VS0_0.writes (Elt F) VS0_0.junk (kernelRun0_B c i arg2 harg2 arg3 harg3 arg4 harg4 arg5 harg5 arg6 harg6 hc0 hc1 x0 x1 x2 xs0).1)

/-- The last step's one store into the output's buffer covers it. -/
theorem cover0_C_3 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S512x2048.size (by sl_kernel_rfl) y

/-- What the last step leaves in the output's staging buffer. -/
def out0_C_3 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) : Vec F S512x2048 .f32 :=
  VO0_3.read (Elt F) (VO0_3.writes (Elt F) VO0_3.junk (kernelRun0_C c i arg2 harg2 arg3 harg3 arg4 harg4 arg5 harg5 arg6 harg6 hc0 hc1 x0 x1 x2 xs0).1)

/-- The last step's one store into the accumulator covers it. -/
theorem scover0_C_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) (y : S512x2048.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S512x2048.size (by sl_kernel_rfl) y

/-- What the last step leaves in the accumulator. -/
def sout0_C_0 (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) : Vec F S512x2048 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the buffers hold after each point -/

/-- THE ACCUMULATION: the output's staging buffer and the accumulator after the body at position `n` of the grid's
    row-major order (position n is row block n / 4, reduction step n % 4). -/
def outsAt0 (c : Dev nD) : (n : ℕ) → n < cfg0.N → Vec F S512x2048 .f32 × Vec F S512x2048 .f32
  | 0, hn => (out0_idle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 4 = 0 then
      if h1 : (n + 1) % 4 = 3 then
        False.elim (by omega)
      else
        (out0_idle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
      else
        (out0_idle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At a first reduction step. -/
theorem outsAt0_A (c : Dev nD) (t : Fin cfg0.N) (h0 : t.val % 4 = 0) (h1 : ¬t.val % 4 = 3) :
    outsAt0 m c t.val t.isLt = (out0_idle, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- At a middle reduction step: over what the point before left. -/
theorem outsAt0_B (c : Dev nD) (t : Fin cfg0.N) (h0 : ¬t.val % 4 = 0) (h1 : ¬t.val % 4 = 3) :
    outsAt0 m c t.val t.isLt = (out0_idle, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last reduction step: over what the point before left. -/
theorem outsAt0_C (c : Dev nD) (t : Fin cfg0.N) (h0 : ¬t.val % 4 = 0) (h1 : t.val % 4 = 3) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the accumulator holds anything; afterwards it
    holds what the point before left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point. The inputs' memrefs hold their blocks; the point's position modulo 4 says which case it is
    in; the invariant hands the body the accumulator at what the point before left (at anything before the first
    point) and takes it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have hN : t.val < 64 := lt_of_lt_of_eq t.isLt (show cfg0.N = 64 from N_0)
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    have hΦ : (dats m 0 c).Φ t.castSucc ⊢ iprop(iprop(∃ d, owns (c : Thread nD τ) scM0_0 fullShare d) ∗ (∃ r, prngReg c r)) := by
      rw [PhiS_castSucc m c t]
      by_cases hz : t.val = 0
      · rw [PhiS_zero m c _ _ hz, PhiA0_eq]
      · rw [PhiS_pos m c _ _ hz]
        iintro ⟨HS0, Hg⟩
        isplitl [HS0]; · iexists _; iexact HS0
        iexact Hg
    iintro ⟨HΦ, Ho, ⟨%d0, H0⟩, ⟨%d1, H1⟩, ⟨%d2, H2⟩, ⟨%d3, H3⟩⟩
    ihave ⟨HS0, Hg⟩ := hΦ $$ HΦ
    iapply ((kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun hz => h0 (by rw [hz])
    rw [PhiS_castSucc m c t, PhiS_pos m c _ _ hz]
    by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      iintro ⟨⟨HS0, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      iintro ⟨⟨HS0, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

/-! ## The run and the frame -/

set_option backward.isDefEq.respectTransparency.types false in
/-- From any memory with zero counters every weakly fair execution of @main terminates, and every final state has each
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME, at any instance of the floats: the program runs to the end, faults nowhere, and its three argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.RefOps.lean ====
/- The reference program's @main as the list of its 35 host operations: the quaternion (Hamilton) matrix built from
   the weight by slices, negations and concatenations, its rows and columns permuted by two gathers through fixed index
   tables, the product of the input with it, and the bias added to every row. -/
import proofs.«109850_j88905823027438_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 35 operations, in order. -/
abbrev ops : List (HloOp τ sig (Elt F)) :=
  [
    nullary main_c (fun i => lit0 (S2048.rowMajor i)),
    nullary main_c_0 (constantI S2048 1 0#1),
    nullary main_c_1 (fun i => lit1 (S2048.rowMajor i)),
    nullary main_c_2 (constantI S2048 1 0#1),
    unary main_arg1 main_v0 ((extractStridedSlice S512x512 ![0, 0] · slices_S512x2048_S512x512_0_0) : (⟨S512x2048, .f32⟩ : BufTy).Contents (Elt F) → (⟨S512x512, .f32⟩ : BufTy).Contents (Elt F)),
    unary main_arg1 main_v1 ((extractStridedSlice S512x512 ![0, 512] · slices_S512x2048_S512x512_0_512) : (⟨S512x2048, .f32⟩ : BufTy).Contents (Elt F) → (⟨S512x512, .f32⟩ : BufTy).Contents (Elt F)),
    unary main_arg1 main_v2 ((extractStridedSlice S512x512 ![0, 1024] · slices_S512x2048_S512x512_0_1024) : (⟨S512x2048, .f32⟩ : BufTy).Contents (Elt F) → (⟨S512x512, .f32⟩ : BufTy).Contents (Elt F)),
    unary main_arg1 main_v3 ((extractStridedSlice S512x512 ![0, 1536] · slices_S512x2048_S512x512_0_1536) : (⟨S512x2048, .f32⟩ : BufTy).Contents (Elt F) → (⟨S512x512, .f32⟩ : BufTy).Contents (Elt F)),
    unary main_v1 main_v4 (Host.negf : (⟨S512x512, .f32⟩ : BufTy).Contents (Elt F) → (⟨S512x512, .f32⟩ : BufTy).Contents (Elt F)),
    unary main_v2 main_v5 (Host.negf : (⟨S512x512, .f32⟩ : BufTy).Contents (Elt F) → (⟨S512x512, .f32⟩ : BufTy).Contents (Elt F)),
    unary main_v3 main_v6 (Host.negf : (⟨S512x512, .f32⟩ : BufTy).Contents (Elt F) → (⟨S512x512, .f32⟩ : BufTy).Contents (Elt F)),
    nary ![main_v0, main_v4, main_v5, main_v6] main_v7 (fun u => concatenate S512x2048 1 [⟨S512x512, u 0⟩, ⟨S512x512, u 1⟩, ⟨S512x512, u 2⟩, ⟨S512x512, u 3⟩] concatenates_S512x512_S512x512_S512x512_S512x512_S512x2048_d1),
    unary main_v3 main_v8 (Host.negf : (⟨S512x512, .f32⟩ : BufTy).Contents (Elt F) → (⟨S512x512, .f32⟩ : BufTy).Contents (Elt F)),
    nary ![main_v1, main_v0, main_v8, main_v2] main_v9 (fun u => concatenate S512x2048 1 [⟨S512x512, u 0⟩, ⟨S512x512, u 1⟩, ⟨S512x512, u 2⟩, ⟨S512x512, u 3⟩] concatenates_S512x512_S512x512_S512x512_S512x512_S512x2048_d1),
    unary main_v1 main_v10 (Host.negf : (⟨S512x512, .f32⟩ : BufTy).Contents (Elt F) → (⟨S512x512, .f32⟩ : BufTy).Contents (Elt F)),
    nary ![main_v2, main_v3, main_v0, main_v10] main_v11 (fun u => concatenate S512x2048 1 [⟨S512x512, u 0⟩, ⟨S512x512, u 1⟩, ⟨S512x512, u 2⟩, ⟨S512x512, u 3⟩] concatenates_S512x512_S512x512_S512x512_S512x512_S512x2048_d1),
    unary main_v2 main_v12 (Host.negf : (⟨S512x512, .f32⟩ : BufTy).Contents (Elt F) → (⟨S512x512, .f32⟩ : BufTy).Contents (Elt F)),
    nary ![main_v3, main_v12, main_v1, main_v0] main_v13 (fun u => concatenate S512x2048 1 [⟨S512x512, u 0⟩, ⟨S512x512, u 1⟩, ⟨S512x512, u 2⟩, ⟨S512x512, u 3⟩] concatenates_S512x512_S512x512_S512x512_S512x512_S512x2048_d1),
    nary ![main_v7, main_v9, main_v11, main_v13] main_v14 (fun u => concatenate S2048x2048 0 [⟨S512x2048, u 0⟩, ⟨S512x2048, u 1⟩, ⟨S512x2048, u 2⟩, ⟨S512x2048, u 3⟩] concatenates_S512x2048_S512x2048_S512x2048_S512x2048_S2048x2048_d0),
    nullary main_c_3 (constantI S_ 32 2048#32),
    unary main_c_3 main_v15 (broadcastInDim S2048 ![] bcast_S_S2048 : (⟨S_, .i32⟩ : BufTy).Contents (Elt F) → (⟨S2048, .i32⟩ : BufTy).Contents (Elt F)),
    binary main_c main_v15 main_v16 (addi : (⟨S2048, .i32⟩ : BufTy).Contents (Elt F) → (⟨S2048, .i32⟩ : BufTy).Contents (Elt F) → (⟨S2048, .i32⟩ : BufTy).Contents (Elt F)),
    ternary main_c_0 main_v16 main_c main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v17 main_v18 (broadcastInDim S2048x1 ![0] bcast_S2048_S2048x1_0 : (⟨S2048, .i32⟩ : BufTy).Contents (Elt F) → (⟨S2048x1, .i32⟩ : BufTy).Contents (Elt F)),
    binary main_v14 main_v18 main_v19 ((fun x i => Host.gather gather_S2048x2048_S2048x1_S2048x2048_1_0_n_n_0_1_12048 x i) : (⟨S2048x2048, .f32⟩ : BufTy).Contents (Elt F) → (⟨S2048x1, .i32⟩ : BufTy).Contents (Elt F) → (⟨S2048x2048, .f32⟩ : BufTy).Contents (Elt F)),
    nullary main_c_4 (constantI S_ 32 2048#32),
    unary main_c_4 main_v20 (broadcastInDim S2048 ![] bcast_S_S2048 : (⟨S_, .i32⟩ : BufTy).Contents (Elt F) → (⟨S2048, .i32⟩ : BufTy).Contents (Elt F)),
    binary main_c_1 main_v20 main_v21 (addi : (⟨S2048, .i32⟩ : BufTy).Contents (Elt F) → (⟨S2048, .i32⟩ : BufTy).Contents (Elt F) → (⟨S2048, .i32⟩ : BufTy).Contents (Elt F)),
    ternary main_c_2 main_v21 main_c_1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v22 main_v23 (broadcastInDim S2048x1 ![0] bcast_S2048_S2048x1_0 : (⟨S2048, .i32⟩ : BufTy).Contents (Elt F) → (⟨S2048x1, .i32⟩ : BufTy).Contents (Elt F)),
    binary main_v19 main_v23 main_v24 ((fun x i => Host.gather gather_S2048x2048_S2048x1_S2048x2048_0_1_n_n_1_1_20481 x i) : (⟨S2048x2048, .f32⟩ : BufTy).Contents (Elt F) → (⟨S2048x1, .i32⟩ : BufTy).Contents (Elt F) → (⟨S2048x2048, .f32⟩ : BufTy).Contents (Elt F)),
    binary main_arg0 main_v24 main_v25 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    unary main_arg2 main_v26 (broadcastInDim S1x2048 ![1] bcast_S2048_S1x2048_1 : (⟨S2048, .f32⟩ : BufTy).Contents (Elt F) → (⟨S1x2048, .f32⟩ : BufTy).Contents (Elt F)),
    unary main_v26 main_v27 (broadcastInDim S8192x2048 ![0, 1] bcast_S1x2048_S8192x2048_0_1 : (⟨S1x2048, .f32⟩ : BufTy).Contents (Elt F) → (⟨S8192x2048, .f32⟩ : BufTy).Contents (Elt F)),
    binary main_v25 main_v27 main_v28 (addf : (⟨S8192x2048, .f32⟩ : BufTy).Contents (Elt F) → (⟨S8192x2048, .f32⟩ : BufTy).Contents (Elt F) → (⟨S8192x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub .., unary_bufs_sub .., unary_bufs_sub .., unary_bufs_sub .., unary_bufs_sub .., unary_bufs_sub .., nary_bufs_sub .., unary_bufs_sub .., nary_bufs_sub .., unary_bufs_sub .., nary_bufs_sub .., unary_bufs_sub .., nary_bufs_sub .., nary_bufs_sub .., nullary_bufs_sub .., unary_bufs_sub .., binary_bufs_sub .., ternary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub ..⟩

end Cert.ReferenceIdeal.Hand

end
-- ==== Proof.LibStages.lean ====
/- A straight line of host operations evaluated one stage at a time: the buffers' contents after the first k + 1
   operations are the contents after the first k, updated by operation k. Keeping "the contents after the first k
   operations" as one folded term per stage lets a long line with much sharing (a value read by several later
   operations) be evaluated without copying the line once per reader. -/
import Idealize.ShloMosaic.Lib.StableHlo.Run
import Idealize.ShloMosaic.Lib.Pipeline.Frame

namespace Idealize.ShloMosaic.StableHlo

variable {τ : Topo} {sig : RefSig} {Val : EltTy → Type}

/-- The contents after the first `k + 1` operations of a line are those after the first `k`, then operation `k`
    (if the line has one). -/
theorem after_take_succ (l : List (HloOp τ sig Val)) (k : ℕ) (V : Valuation τ sig Val) :
    after (l.take (k + 1)) V = after (l[k]?.toList) (after (l.take k) V) := by
  rw [List.take_succ, StableHlo.after_append]

/-- The contents after a whole line are those after its first `k` operations, then the rest. -/
theorem after_take_drop (l : List (HloOp τ sig Val)) (k : ℕ) (V : Valuation τ sig Val) :
    after l V = after (l.drop k) (after (l.take k) V) := by
  rw [← StableHlo.after_append, List.take_append_drop]

end Idealize.ShloMosaic.StableHlo
-- ==== Proof.RefRun.lean ====
/- The reference program's run: its host operations one stage at a time, and the whole line run from any memory —
   every weakly fair execution terminates with the result buffer at the product of the input with the permuted
   Hamilton matrix (the contents of the thirty-first operation's result, kept folded) plus the bias repeated down the
   rows, and the three arguments unchanged. -/
import proofs.«109850_j88905823027438_1_alg».proof.Proof.RefOps
import proofs.«109850_j88905823027438_1_alg».proof.Proof.LibStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## One operation at a time -/

theorem stR0 (V : Valuation τ sig (Elt F)) :
    after ((ops (F := F)).take 1) V = (StableHlo.nullary main_c (fun i => lit0 (S2048.rowMajor i))).result (after ((ops (F := F)).take 0) V) := by
  rw [after_take_succ]; rfl
theorem stR1 (V : Valuation τ sig (Elt F)) :
    after ((ops (F := F)).take 2) V = (StableHlo.nullary main_c_0 (constantI S2048 1 0#1)).result (after ((ops (F := F)).take 1) V) := by
  rw [after_take_succ]; rfl
theorem stR2 (V : Valuation τ sig (Elt F)) :
    after ((ops (F := F)).take 3) V = (StableHlo.nullary main_c_1 (fun i => lit1 (S2048.rowMajor i))).result (after ((ops (F := F)).take 2) V) := by
  rw [after_take_succ]; rfl
theorem stR3 (V : Valuation τ sig (Elt F)) :
    after ((ops (F := F)).take 4) V = (StableHlo.nullary main_c_2 (constantI S2048 1 0#1)).result (after ((ops (F := F)).take 3) V) := by
  rw [after_take_succ]; rfl
theorem stR4 (V : Valuation τ sig (Elt F)) :
    after ((ops (F := F)).take 5) V = (StableHlo.unary main_arg1 main_v0 ((extractStridedSlice S512x512 ![0, 0] · slices_S512x2048_S512x512_0_0) : (⟨S512x2048, .f32⟩ : BufTy).Contents (Elt F) → (⟨S512x512, .f32⟩ : BufTy).Contents (Elt F))).result (after ((ops (F := F)).take 4) V) := by
  rw [after_take_succ]; rfl
theorem stR5 (V : Valuation τ sig (Elt F)) :
    after ((ops (F := F)).take 6) V = (StableHlo.unary main_arg1 main_v1 ((extractStridedSlice S512x512 ![0, 512] · slices_S512x2048_S512x512_0_512) : (⟨S512x2048, .f32⟩ : BufTy).Contents (Elt F) → (⟨S512x512, .f32⟩ : BufTy).Contents (Elt F))).result (after ((ops (F := F)).take 5) V) := by
  rw [after_take_succ]; rfl
theorem stR6 (V : Valuation τ sig (Elt F)) :
    after ((ops (F := F)).take 7) V = (StableHlo.unary main_arg1 main_v2 ((extractStridedSlice S512x512 ![0, 1024] · slices_S512x2048_S512x512_0_1024) : (⟨S512x2048, .f32⟩ : BufTy).Contents (Elt F) → (⟨S512x512, .f32⟩ : BufTy).Contents (Elt F))).result (after ((ops (F := F)).take 6) V) := by
  rw [after_take_succ]; rfl
theorem stR7 (V : Valuation τ sig (Elt F)) :
    after ((ops (F := F)).take 8) V = (StableHlo.unary main_arg1 main_v3 ((extractStridedSlice S512x512 ![0, 1536] · slices_S512x2048_S512x512_0_1536) : (⟨S512x2048, .f32⟩ : BufTy).Contents (Elt F) → (⟨S512x512, .f32⟩ : BufTy).Contents (Elt F))).result (after ((ops (F := F)).take 7) V) := by
  rw [after_take_succ]; rfl
theorem stR8 (V : Valuation τ sig (Elt F)) :
    after ((ops (F := F)).take 9) V = (StableHlo.unary main_v1 main_v4 (Host.negf : (⟨S512x512, .f32⟩ : BufTy).Contents (Elt F) → (⟨S512x512, .f32⟩ : BufTy).Contents (Elt F))).result (after ((ops (F := F)).take 8) V) := by
  rw [after_take_succ]; rfl
theorem stR9 (V : Valuation τ sig (Elt F)) :
    after ((ops (F := F)).take 10) V = (StableHlo.unary main_v2 main_v5 (Host.negf : (⟨S512x512, .f32⟩ : BufTy).Contents (Elt F) → (⟨S512x512, .f32⟩ : BufTy).Contents (Elt F))).result (after ((ops (F := F)).take 9) V) := by
  rw [after_take_succ]; rfl
theorem stR10 (V : Valuation τ sig (Elt F)) :
    after ((ops (F := F)).take 11) V = (StableHlo.unary main_v3 main_v6 (Host.negf : (⟨S512x512, .f32⟩ : BufTy).Contents (Elt F) → (⟨S512x512, .f32⟩ : BufTy).Contents (Elt F))).result (after ((ops (F := F)).take 10) V) := by
  rw [after_take_succ]; rfl
theorem stR11 (V : Valuation τ sig (Elt F)) :
    after ((ops (F := F)).take 12) V = (StableHlo.nary ![main_v0, main_v4, main_v5, main_v6] main_v7 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 11) V) := by
  rw [after_take_succ]; rfl
theorem stR12 (V : Valuation τ sig (Elt F)) :
    after ((ops (F := F)).take 13) V = (StableHlo.unary main_v3 main_v8 (Host.negf : (⟨S512x512, .f32⟩ : BufTy).Contents (Elt F) → (⟨S512x512, .f32⟩ : BufTy).Contents (Elt F))).result (after ((ops (F := F)).take 12) V) := by
  rw [after_take_succ]; rfl
theorem stR13 (V : Valuation τ sig (Elt F)) :
    after ((ops (F := F)).take 14) V = (StableHlo.nary ![main_v1, main_v0, main_v8, main_v2] main_v9 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 13) V) := by
  rw [after_take_succ]; rfl
theorem stR14 (V : Valuation τ sig (Elt F)) :
    after ((ops (F := F)).take 15) V = (StableHlo.unary main_v1 main_v10 (Host.negf : (⟨S512x512, .f32⟩ : BufTy).Contents (Elt F) → (⟨S512x512, .f32⟩ : BufTy).Contents (Elt F))).result (after ((ops (F := F)).take 14) V) := by
  rw [after_take_succ]; rfl
theorem stR15 (V : Valuation τ sig (Elt F)) :
    after ((ops (F := F)).take 16) V = (StableHlo.nary ![main_v2, main_v3, main_v0, main_v10] main_v11 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 15) V) := by
  rw [after_take_succ]; rfl
theorem stR16 (V : Valuation τ sig (Elt F)) :
    after ((ops (F := F)).take 17) V = (StableHlo.unary main_v2 main_v12 (Host.negf : (⟨S512x512, .f32⟩ : BufTy).Contents (Elt F) → (⟨S512x512, .f32⟩ : BufTy).Contents (Elt F))).result (after ((ops (F := F)).take 16) V) := by
  rw [after_take_succ]; rfl
theorem stR17 (V : Valuation τ sig (Elt F)) :
    after ((ops (F := F)).take 18) V = (StableHlo.nary ![main_v3, main_v12, main_v1, main_v0] main_v13 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 17) V) := by
  rw [after_take_succ]; rfl
theorem stR18 (V : Valuation τ sig (Elt F)) :
    after ((ops (F := F)).take 19) V = (StableHlo.nary ![main_v7, main_v9, main_v11, main_v13] main_v14 (fun u => concatenate S2048x2048 0 [⟨S512x2048, u 0⟩, ⟨S512x2048, u 1⟩, ⟨S512x2048, u 2⟩, ⟨S512x2048, u 3⟩] concatenates_S512x2048_S512x2048_S512x2048_S512x2048_S2048x2048_d0)).result (after ((ops (F := F)).take 18) V) := by
  rw [after_take_succ]; rfl
theorem stR19 (V : Valuation τ sig (Elt F)) :
    after ((ops (F := F)).take 20) V = (StableHlo.nullary main_c_3 (constantI S_ 32 2048#32)).result (after ((ops (F := F)).take 19) V) := by
  rw [after_take_succ]; rfl
theorem stR20 (V : Valuation τ sig (Elt F)) :
    after ((ops (F := F)).take 21) V = (StableHlo.unary main_c_3 main_v15 (broadcastInDim S2048 ![] bcast_S_S2048 : (⟨S_, .i32⟩ : BufTy).Contents (Elt F) → (⟨S2048, .i32⟩ : BufTy).Contents (Elt F))).result (after ((ops (F := F)).take 20) V) := by
  rw [after_take_succ]; rfl
theorem stR21 (V : Valuation τ sig (Elt F)) :
    after ((ops (F := F)).take 22) V = (StableHlo.binary main_c main_v15 main_v16 (addi : (⟨S2048, .i32⟩ : BufTy).Contents (Elt F) → (⟨S2048, .i32⟩ : BufTy).Contents (Elt F) → (⟨S2048, .i32⟩ : BufTy).Contents (Elt F))).result (after ((ops (F := F)).take 21) V) := by
  rw [after_take_succ]; rfl
theorem stR22 (V : Valuation τ sig (Elt F)) :
    after ((ops (F := F)).take 23) V = (StableHlo.ternary main_c_0 main_v16 main_c main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((ops (F := F)).take 22) V) := by
  rw [after_take_succ]; rfl
theorem stR23 (V : Valuation τ sig (Elt F)) :
    after ((ops (F := F)).take 24) V = (StableHlo.unary main_v17 main_v18 (broadcastInDim S2048x1 ![0] bcast_S2048_S2048x1_0 : (⟨S2048, .i32⟩ : BufTy).Contents (Elt F) → (⟨S2048x1, .i32⟩ : BufTy).Contents (Elt F))).result (after ((ops (F := F)).take 23) V) := by
  rw [after_take_succ]; rfl
theorem stR24 (V : Valuation τ sig (Elt F)) :
    after ((ops (F := F)).take 25) V = (StableHlo.binary main_v14 main_v18 main_v19 ((fun x i => Host.gather gather_S2048x2048_S2048x1_S2048x2048_1_0_n_n_0_1_12048 x i) : (⟨S2048x2048, .f32⟩ : BufTy).Contents (Elt F) → (⟨S2048x1, .i32⟩ : BufTy).Contents (Elt F) → (⟨S2048x2048, .f32⟩ : BufTy).Contents (Elt F))).result (after ((ops (F := F)).take 24) V) := by
  rw [after_take_succ]; rfl
theorem stR25 (V : Valuation τ sig (Elt F)) :
    after ((ops (F := F)).take 26) V = (StableHlo.nullary main_c_4 (constantI S_ 32 2048#32)).result (after ((ops (F := F)).take 25) V) := by
  rw [after_take_succ]; rfl
theorem stR26 (V : Valuation τ sig (Elt F)) :
    after ((ops (F := F)).take 27) V = (StableHlo.unary main_c_4 main_v20 (broadcastInDim S2048 ![] bcast_S_S2048 : (⟨S_, .i32⟩ : BufTy).Contents (Elt F) → (⟨S2048, .i32⟩ : BufTy).Contents (Elt F))).result (after ((ops (F := F)).take 26) V) := by
  rw [after_take_succ]; rfl
theorem stR27 (V : Valuation τ sig (Elt F)) :
    after ((ops (F := F)).take 28) V = (StableHlo.binary main_c_1 main_v20 main_v21 (addi : (⟨S2048, .i32⟩ : BufTy).Contents (Elt F) → (⟨S2048, .i32⟩ : BufTy).Contents (Elt F) → (⟨S2048, .i32⟩ : BufTy).Contents (Elt F))).result (after ((ops (F := F)).take 27) V) := by
  rw [after_take_succ]; rfl
theorem stR28 (V : Valuation τ sig (Elt F)) :
    after ((ops (F := F)).take 29) V = (StableHlo.ternary main_c_2 main_v21 main_c_1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((ops (F := F)).take 28) V) := by
  rw [after_take_succ]; rfl
theorem stR29 (V : Valuation τ sig (Elt F)) :
    after ((ops (F := F)).take 30) V = (StableHlo.unary main_v22 main_v23 (broadcastInDim S2048x1 ![0] bcast_S2048_S2048x1_0 : (⟨S2048, .i32⟩ : BufTy).Contents (Elt F) → (⟨S2048x1, .i32⟩ : BufTy).Contents (Elt F))).result (after ((ops (F := F)).take 29) V) := by
  rw [after_take_succ]; rfl
theorem stR30 (V : Valuation τ sig (Elt F)) :
    after ((ops (F := F)).take 31) V = (StableHlo.binary main_v19 main_v23 main_v24 ((fun x i => Host.gather gather_S2048x2048_S2048x1_S2048x2048_0_1_n_n_1_1_20481 x i) : (⟨S2048x2048, .f32⟩ : BufTy).Contents (Elt F) → (⟨S2048x1, .i32⟩ : BufTy).Contents (Elt F) → (⟨S2048x2048, .f32⟩ : BufTy).Contents (Elt F))).result (after ((ops (F := F)).take 30) V) := by
  rw [after_take_succ]; rfl

/-! ## The run -/

/-- The permuted Hamilton matrix as the host operations leave it, from the buffers' launch contents. -/
abbrev hamAt (W : Valuation τ sig (Elt F)) : FVec F S2048x2048 .f32 :=
  after ((ops (F := F)).take 31) W (Proc.devRef .tc main_v24)

theorem pre_arg0 (W : Valuation τ sig (Elt F)) : after ((ops (F := F)).take 31) W (Proc.devRef .tc main_arg0) = W (Proc.devRef .tc main_arg0) :=
  after_of_forall_not_mem (b := Proc.devRef .tc main_arg0) _ _ (List.forall_iff_forall_mem.mp (by
    simp only [ops, List.take, List.Forall, StableHlo.nullary_writes, StableHlo.unary_writes, StableHlo.binary_writes, StableHlo.ternary_writes, StableHlo.nary_writes, Finset.mem_singleton]
    repeat' apply And.intro
    all_goals exact StableHlo.devRef_ne_of_ne (by decide)))
theorem pre_arg2 (W : Valuation τ sig (Elt F)) : after ((ops (F := F)).take 31) W (Proc.devRef .tc main_arg2) = W (Proc.devRef .tc main_arg2) :=
  after_of_forall_not_mem (b := Proc.devRef .tc main_arg2) _ _ (List.forall_iff_forall_mem.mp (by
    simp only [ops, List.take, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The result buffer after the whole line. -/
theorem out_eq (W : Valuation τ sig (Elt F)) :
    (after (ops (F := F)) W (Proc.devRef .tc main_v28) : FVec F S8192x2048 .f32)
      = addf (Host.dotGeneral dot_S8192x2048_S2048x2048_S8192x2048_1_0_0_1_n_n none (W (Proc.devRef .tc main_arg0)) (hamAt W))
          (broadcastInDim S8192x2048 ![0, 1] bcast_S1x2048_S8192x2048_0_1 (broadcastInDim S1x2048 ![1] bcast_S2048_S1x2048_1 (W (Proc.devRef .tc main_arg2)))) := by
  rw [after_take_drop _ 31]
  show after [StableHlo.binary main_arg0 main_v24 main_v25 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)), StableHlo.unary main_arg2 main_v26 (broadcastInDim S1x2048 ![1] bcast_S2048_S1x2048_1 : (⟨S2048, .f32⟩ : BufTy).Contents (Elt F) → (⟨S1x2048, .f32⟩ : BufTy).Contents (Elt F)), StableHlo.unary main_v26 main_v27 (broadcastInDim S8192x2048 ![0, 1] bcast_S1x2048_S8192x2048_0_1 : (⟨S1x2048, .f32⟩ : BufTy).Contents (Elt F) → (⟨S8192x2048, .f32⟩ : BufTy).Contents (Elt F)), StableHlo.binary main_v25 main_v27 main_v28 (addf : (⟨S8192x2048, .f32⟩ : BufTy).Contents (Elt F) → (⟨S8192x2048, .f32⟩ : BufTy).Contents (Elt F) → (⟨S8192x2048, .f32⟩ : BufTy).Contents (Elt F))] _ _ = _
  after_results
  rw [pre_arg0, pre_arg2]

/-- From any memory with zero counters every weakly fair execution of @main terminates, with the result as above and
    the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = addf (Host.dotGeneral dot_S8192x2048_S2048x2048_S8192x2048_1_0_0_1_n_n none (m ((c.tc : Thread nD τ).loc main_arg0)) (hamAt (fun b => m (c, b))))
            (broadcastInDim S8192x2048 ![0, 1] bcast_S1x2048_S8192x2048_0_1 (broadcastInDim S1x2048 ![1] bcast_S2048_S1x2048_1 (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v28).trans (out_eq _),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.Hand

end
-- ==== Proof.IdealPieces.lean ====
/- What each case of the body leaves behind, as the body's own stored values: the first reduction step leaves in the
   accumulator the accumulation applied to the zero block; a middle step leaves the accumulation applied to what the
   accumulator held; the last step leaves the same in the accumulator and, in the output's buffer, that plus the bias. -/
import proofs.«109850_j88905823027438_1_alg».proof.Proof.IdealFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle step: the accumulator ends at the accumulation over what it held. -/
theorem sout_B (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .bf16) (x1 : Vec F S512x2048 .bf16) (x2 : Vec F S1x2048 .f32) (xs0 : Vec F S512x2048 .f32) :
    sout0_B_0 c i arg2 harg2 arg3 harg3 arg4 harg4 arg5 harg5 arg6 harg6 hc0 hc1 x0 x1 x2 xs0 = k0_pay2 xs0 x0 x1 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg6.read_unread, View.ld_unit_zero (S := S512x2048) hz, View.ld_unit_zero (S := S512x512) hz]

/-- The first step: the accumulator ends at the accumulation over the zero block it has just stored. -/
theorem sout_A (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .bf16) (x1 : Vec F S512x2048 .bf16) (x2 : Vec F S1x2048 .f32) :
    sout0_A_0 c i arg2 harg2 arg3 harg3 arg4 harg4 arg5 harg5 arg6 harg6 hc0 hc1 x0 x1 x2 = k0_pay2 (k0_pay1 (F := F)) x0 x1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x2048) hz, View.readCov_unit_zero (S := S512x2048) _ hz]
  simp only [View.readAt_eq_ld, harg2.read_unread, harg3.read_unread, View.ld_unit_zero (S := S512x2048) hz, View.ld_unit_zero (S := S512x512) hz]

/-- The last step: the accumulator ends at the accumulation over what it held, -/
theorem sout_C (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) :
    sout0_C_0 c i arg2 harg2 arg3 harg3 arg4 harg4 arg5 harg5 arg6 harg6 hc0 hc1 x0 x1 x2 xs0 = k0_pay2 xs0 x0 x1 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread, View.ld_unit_zero (S := S512x2048) hz, View.ld_unit_zero (S := S512x512) hz]

/-- and the output's buffer at that plus the bias row. -/
theorem out_C (c : Dev nD) (i : grid0.Coords) (arg2 : Memref sig .tc .vmem S512x512 .bf16) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .bf16) (x1 : Vec F S512x2048 .bf16) (x2 : Vec F S1x2048 .f32) (xs0 : Vec F S512x2048 .f32) :
    out0_C_3 c i arg2 harg2 arg3 harg3 arg4 harg4 arg5 harg5 arg6 harg6 hc0 hc1 x0 x1 x2 xs0 = k0_pay3 (k0_pay2 xs0 x0 x1) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x2048) hz, View.ld_unit_zero (S := S512x512) hz, View.ld_unit_zero (S := S1x2048) hz, View.readCov_unit_zero (S := S512x2048) _ hz]

end Cert.KernelIdeal.Hand

end
-- ==== Proof.IdealFinal.lean ====
/- From blocks to arrays. Grid position t is row block t / 4 and reduction step t % 4: the left operand's block there
   is rows 512·(t/4) + r, columns 512·(t%4) + j of its array; the right operand's block is rows 512·(t%4) + j, all
   columns; the bias's one block is its whole array; and the output's block, written back at the positions with
   t % 4 = 3, is rows 512·(t/4) + r, all columns. Those sixteen row blocks cover the output array, so after the run it
   holds any function that agrees with what each such position stored. -/
import proofs.«109850_j88905823027438_1_alg».proof.Proof.IdealFrame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output row that row `r` of position `t`'s block is. -/
def rowOf (t : Fin cfg0.N) (r : Fin 512) : Fin 8192 :=
  ⟨512 * (t.val / 4) + r.val, by have h : t.val < 64 := lt_of_lt_of_eq t.isLt N_0; omega⟩

/-- The contraction position that entry `j` of position `t`'s block is. -/
def colOf (t : Fin cfg0.N) (j : Fin 512) : Fin 2048 :=
  ⟨512 * (t.val % 4) + j.val, by omega⟩

/-- The left operand's block index at a position: row block and reduction step. -/
theorem index0_eq : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

/-- The right operand's block index at a position: the reduction step, and the one column block. -/
theorem index1_eq : ∀ t : Fin cfg0.N, win0_1.index t 0 = t.val % 4 ∧ win0_1.index t 1 = 0 :=
  (by decide +kernel : ∀ t : Fin grid0.N, win0_1.index t 0 = t.val % 4 ∧ win0_1.index t 1 = 0)

/-- The bias's block index is zero on both axes. -/
theorem index2_eq : ∀ t : Fin cfg0.N, win0_2.index t 0 = 0 ∧ win0_2.index t 1 = 0 :=
  (by decide +kernel : ∀ t : Fin grid0.N, win0_2.index t 0 = 0 ∧ win0_2.index t 1 = 0)

/-- The output's block index at a position: the row block, and the one column block. -/
theorem index3_eq : ∀ t : Fin cfg0.N, win0_3.index t 0 = t.val / 4 ∧ win0_3.index t 1 = 0 :=
  (by decide +kernel : ∀ t : Fin grid0.N, win0_3.index t 0 = t.val / 4 ∧ win0_3.index t 1 = 0)

/-- The left operand's block at a position, entry by entry. -/
theorem iblk0_apply (c : Dev nD) (t : Fin cfg0.N) (r j : Fin 512) :
    (iblk m c 0 t : Vec F S512x512 .bf16) (ix2 r j)
      = (V m c main_v25 : Vec F S8192x2048 .bf16) (ix2 (rowOf t r) (colOf t j)) := by
  obtain ⟨e0, e1⟩ := index0_eq t
  unfold iblk
  rw [View.read_apply]
  show V m c main_v25 _ = V m c main_v25 _
  congr 1
  funext a
  apply Fin.ext
  match a with
  | ⟨0, _⟩ => show win0_0.index t 0 * 512 + 1 * r.val = 512 * (t.val / 4) + r.val; omega
  | ⟨1, _⟩ => show win0_0.index t 1 * 512 + 1 * j.val = 512 * (t.val % 4) + j.val; omega

/-- The right operand's block at a position, entry by entry. -/
theorem iblk1_apply (c : Dev nD) (t : Fin cfg0.N) (j : Fin 512) (n : Fin 2048) :
    (iblk m c 1 t : Vec F S512x2048 .bf16) (ix2 j n)
      = (V m c main_v26 : Vec F S2048x2048 .bf16) (ix2 (colOf t j) n) := by
  obtain ⟨e0, e1⟩ := index1_eq t
  unfold iblk
  rw [View.read_apply]
  show V m c main_v26 _ = V m c main_v26 _
  congr 1
  funext a
  apply Fin.ext
  match a with
  | ⟨0, _⟩ => show win0_1.index t 0 * 512 + 1 * j.val = 512 * (t.val % 4) + j.val; omega
  | ⟨1, _⟩ => show win0_1.index t 1 * 2048 + 1 * n.val = n.val; omega

/-- The bias's block is its array. -/
theorem iblk2_apply (c : Dev nD) (t : Fin cfg0.N) (z : Fin 1) (n : Fin 2048) :
    (iblk m c 2 t : Vec F S1x2048 .f32) (ix2 z n) = (V m c main_v27 : Vec F S1x2048 .f32) (ix2 z n) := by
  obtain ⟨e0, e1⟩ := index2_eq t
  unfold iblk
  rw [View.read_apply]
  show V m c main_v27 _ = V m c main_v27 _
  congr 1
  funext a
  apply Fin.ext
  match a with
  | ⟨0, _⟩ => show win0_2.index t 0 * 1 + 1 * z.val = z.val; omega
  | ⟨1, _⟩ => show win0_2.index t 1 * 2048 + 1 * n.val = n.val; omega

/-- What a write-back position stores is its block of any array function that agrees with the stored rows. -/
theorem flushed3_eq (c : Dev nD) (G : Buf (Elt F) ((c : Thread nD τ).loc main_v28))
    (hG : ∀ t : Fin cfg0.N, t.val % 4 = 3 → ∀ (r : Fin 512) (n : Fin 2048),
      ((outsAt0 m c t.val t.isLt).1 : Vec F S512x2048 .f32) (ix2 r n) = (G : Vec F S8192x2048 .f32) (ix2 (rowOf t r) n))
    (t : Fin cfg0.N) (hf : (cfg0.win 3).flush t = true) :
    (dats m 0 c).flushed 3 t = ((cfg0.win 3).blk t).view.read (Elt F) G := by
  have h3 : t.val % 4 = 3 := (flush0_3 t).mp hf
  obtain ⟨e0, e1⟩ := index3_eq t
  show (cfg0.win 3).cut (grid0.coords t) ((dats m 0 c).after 3 t) = _
  rw [after0_3]
  funext y
  rw [View.read_apply]
  have hr : (y 0).val < 512 := (y 0).isLt
  have hn : (y 1).val < 2048 := (y 1).isLt
  have key := hG t h3 ⟨(y 0).val, hr⟩ ⟨(y 1).val, hn⟩
  refine (congrArg _ ?_).trans (key.trans (congrArg _ ?_))
  · funext a
    apply Fin.ext
    match a with
    | ⟨0, _⟩ => rfl
    | ⟨1, _⟩ => rfl
  · funext a
    apply Fin.ext
    match a with
    | ⟨0, _⟩ => show 512 * (t.val / 4) + (y 0).val = win0_3.index t 0 * 512 + 1 * (y 0).val; omega
    | ⟨1, _⟩ => show (y 1).val = win0_3.index t 1 * 2048 + 1 * (y 1).val; omega

/-- The output array after the run is any function that agrees, row by row, with what each write-back position
    stored into the output's staging buffer. -/
theorem final_of (c : Dev nD) (G : Buf (Elt F) ((c : Thread nD τ).loc main_v28))
    (hG : ∀ t : Fin cfg0.N, t.val % 4 = 3 → ∀ (r : Fin 512) (n : Fin 2048),
      ((outsAt0 m c t.val t.isLt).1 : Vec F S512x2048 .f32) (ix2 r n) = (G : Vec F S8192x2048 .f32) (ix2 (rowOf t r) n)) :
    (dats m 0 c).arrAt 3 cfg0.N = G := by
  exact (dats m 0 c).arrAt_eq_of_cover 3 G (flushed3_eq m c G hG) fun i => by
    have hi0 : (i 0).val < 8192 := (i 0).isLt
    have hi1 : (i 1).val < 2048 := (i 1).isLt
    have hN : cfg0.N = 64 := N_0
    obtain ⟨t, ht⟩ : ∃ t : Fin cfg0.N, t.val = 4 * ((i 0).val / 512) + 3 := ⟨⟨4 * ((i 0).val / 512) + 3, by omega⟩, rfl⟩
    obtain ⟨e0, e1⟩ := index3_eq t
    refine ⟨t, (flush0_3 t).mpr (by omega), ?_⟩
    show i ∈ ((View.whole main_v28).slice (win0_3.rect t)).set
    rw [View.set_slice_whole, Rect.mem_set_unit]
    intro a
    match a with
    | ⟨0, _⟩ => show win0_3.index t 0 * 512 ≤ (i 0).val ∧ (i 0).val < win0_3.index t 0 * 512 + 512; omega
    | ⟨1, _⟩ => show win0_3.index t 1 * 2048 ≤ (i 1).val ∧ (i 1).val < win0_3.index t 1 * 2048 + 2048; omega

end Cert.KernelIdeal.Hand

end
-- ==== Proof.IdealPay.lean ====
/- The body's three stored values read at an index, at the ideal instance (floats are extended reals, every
   operation exact, a change of float format the identity): the reset stores zero; the accumulation stores, at row r and
   column n, what the accumulator held there plus the inner product of row r of the left block with column n of the right
   block (512 terms); the epilogue stores the accumulator plus the bias row's entry of column n. -/
import proofs.«109850_j88905823027438_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen

/-! ## The product's operand indices, axis by axis

The block product contracts the left block's column axis with the right block's row axis. At output index `i` and
contraction index `q`, the left operand is read at row `i 0` and column `q`, the right operand at row `q` and
column `i 1`. Each of the four coordinates is one branch of the operand-index definition: a kept axis reads the
output index, the contracted axis reads the contraction index's one coordinate. -/

/-- Left operand, row axis: kept, so it is the output row. -/
theorem lhs_axis0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl

/-- Left operand, column axis: the one contracted axis, so it is the contraction coordinate. -/
theorem lhs_axis1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q

/-- Right operand, row axis: the one contracted axis, so it is the contraction coordinate. -/
theorem rhs_axis0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q

/-- Right operand, column axis: kept, so it is the output column. -/
theorem rhs_axis1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The contraction index set is its one coordinate's range, 512 values. -/
abbrev contrE : dot_S512x512_S512x2048_S512x2048_1_0_0_1_n_n.contr.Idx ≃ Fin 512 :=
  contrEquiv1 dot_S512x512_S512x2048_S512x2048_1_0_0_1_n_n 512 rfl rfl

/-- The left operand's index at output `(r, n)` and the contraction index of coordinate `k` is `(r, k)`. -/
theorem lhsIdx_ix2 (r : Fin 512) (n : Fin 2048) (k : Fin 512) :
    dot_S512x512_S512x2048_S512x2048_1_0_0_1_n_n.lhsIdx (ix2 r n) (contrE.symm k) = ix2 r k := by
  have hk := contrEquiv1_symm_val dot_S512x512_S512x2048_S512x2048_1_0_0_1_n_n 512 rfl rfl k
  funext a
  refine Fin.ext ?_
  match a with
  | ⟨0, _⟩ => exact lhs_axis0 _ _
  | ⟨1, _⟩ => exact (lhs_axis1 _ _).trans hk

/-- The right operand's index at output `(r, n)` and the contraction index of coordinate `k` is `(k, n)`. -/
theorem rhsIdx_ix2 (r : Fin 512) (n : Fin 2048) (k : Fin 512) :
    dot_S512x512_S512x2048_S512x2048_1_0_0_1_n_n.rhsIdx (ix2 r n) (contrE.symm k) = ix2 k n := by
  have hk := contrEquiv1_symm_val dot_S512x512_S512x2048_S512x2048_1_0_0_1_n_n 512 rfl rfl k
  funext a
  refine Fin.ext ?_
  match a with
  | ⟨0, _⟩ => exact (rhs_axis0 _ _).trans hk
  | ⟨1, _⟩ => exact rhs_axis1 _ _

/-- The reset's payload is zero everywhere. -/
theorem pay1_apply (j : S512x2048.Idx) : (k0_pay1 (F := Ideal) : Vec Ideal S512x2048 .f32) j = (0 : EReal) := by
  unfold k0_pay1
  -- a shape cast to the same shape is the identity; a broadcast scalar reads itself; the zero word is the real 0
  refine (congrFun (shapeCast_self _ _) j).trans ?_
  exact Ideal.ofBits_zero_f32

/-- The accumulation's payload at row `r`, column `n`. -/
theorem pay2_apply (acc : Vec Ideal S512x2048 .f32) (x0 : Vec Ideal S512x512 .bf16) (x1 : Vec Ideal S512x2048 .bf16)
    (r : Fin 512) (n : Fin 2048) :
    (k0_pay2 (F := Ideal) acc x0 x1 : Vec Ideal S512x2048 .f32) (ix2 r n)
      = (acc (ix2 r n) : EReal) + ∑ j : Fin 512, (x0 (ix2 r j) : EReal) * (x1 (ix2 j n) : EReal) := by
  unfold k0_pay2
  -- the three shape casts are to the same shape, hence identities; what is left is acc + (product into the zero splat)
  refine (congrFun (shapeCast_self _ _) (ix2 r n)).trans ?_
  rw [shapeCast_self x0, shapeCast_self x1]
  refine congrArg (fun t : EReal => (acc (ix2 r n) : EReal) + t) ?_
  -- the product into the zero splat is the plain sum over the contraction index; re-index it by its coordinate
  refine (Ideal.matmul_constant_zero_apply (φ₁ := .bf16) (φ₂ := .bf16) dot_S512x512_S512x2048_S512x2048_1_0_0_1_n_n none x0 x1 (ix2 r n)).trans ?_
  rw [← Equiv.sum_comp contrE.symm]
  refine Finset.sum_congr rfl fun k _ => ?_
  rw [lhsIdx_ix2 r n k, rhsIdx_ix2 r n k]

/-- The epilogue's payload at row `r`, column `n`: the bias row is repeated down the rows. -/
theorem pay3_apply (acc : Vec Ideal S512x2048 .f32) (b : Vec Ideal S1x2048 .f32) (r : Fin 512) (n : Fin 2048) :
    (k0_pay3 (F := Ideal) acc b : Vec Ideal S512x2048 .f32) (ix2 r n) = (acc (ix2 r n) : EReal) + (b (ix2 (0 : Fin 1) n) : EReal) := by
  unfold k0_pay3
  refine congrArg (fun t : EReal => (acc (ix2 r n) : EReal) + t) ?_
  -- the bias row, cast to its own shape, is repeated down the rows: row coordinate 0 on its unit axis, column n
  rw [shapeCast_self b]
  exact broadcastTo_apply b _ (ix2 r n) (ix2 (0 : Fin 1) n) fun a =>
    match a with
    | ⟨0, _⟩ => rfl
    | ⟨1, _⟩ => rfl

end Cert.KernelIdeal.Pay

end
-- ==== Proof.Spec.lean ====
/- The one law that joins the kernel's value to the reference's: a sum over the 2048 positions of the contraction
   axis is the sum of its four consecutive blocks of 512, taken in order and started from zero. Addition on the extended
   reals is commutative and associative (whatever the infinities), so nothing about finiteness is needed. -/
import Idealize.ShloMosaic.PureOps.Ideal
import Idealize.ShloMosaic.Lib.ValueIdx

noncomputable section

namespace Cert.MatBias

open Idealize.ShloMosaic

/-- Position `j` of block `a` of the contraction axis: 512·a + j. -/
def blk (a : Fin 4) (j : Fin 512) : Fin 2048 := ⟨512 * a.val + j.val, by omega⟩

/-- Row `r` of row block `i` of the output: 512·i + r. -/
def row (i : Fin 16) (r : Fin 512) : Fin 8192 := ⟨512 * i.val + r.val, by omega⟩

/-- The four block sums, added in order onto zero, are the whole sum. -/
theorem sum_blocks (f : Fin 2048 → EReal) :
    (((0 + ∑ j : Fin 512, f (blk 0 j)) + ∑ j : Fin 512, f (blk 1 j)) + ∑ j : Fin 512, f (blk 2 j)) + ∑ j : Fin 512, f (blk 3 j)
      = ∑ k : Fin 2048, f k := by
  -- Re-index the whole sum over pairs (block, position in block): the pair (a, j) names the position 512·a + j,
  -- and every position of the axis is named by exactly one pair.
  have h : ∑ k : Fin 2048, f k = ∑ p : Fin 4 × Fin 512, f (blk p.1 p.2) := by
    refine (Fintype.sum_equiv (finProdFinEquiv (m := 4) (n := 512))
      (fun p => f (blk p.1 p.2)) (fun k : Fin 2048 => f k) ?_).symm
    rintro ⟨a, j⟩
    have e : (finProdFinEquiv (m := 4) (n := 512) (a, j) : Fin 2048) = blk a j := by
      apply Fin.ext
      simp [blk, finProdFinEquiv]
      omega
    simp only [e]
  -- A sum over pairs is the iterated sum, outer over the four blocks; written out, the four block sums in order.
  rw [h, Fintype.sum_prod_type, Fin.sum_univ_four, zero_add]

end Cert.MatBias

end
-- ==== Proof.IdealValue.lean ====
/- The value the kernel program computes, at the ideal instance. Within one row block the accumulator starts, at
   reduction step 0, from the zero block plus the first block product, and gains one block product at each of steps 1, 2
   and 3; the output block stored at step 3 is that sum plus the bias row. Read at row r and column n and re-indexed
   through the blocks of the two operand arrays, the four block products are the four consecutive quarters of the inner
   product of row 512·i + r of the left operand with column n of the right operand; so the output array ends at the
   whole inner product plus the bias entry. -/
import proofs.«109850_j88905823027438_1_alg».proof.Proof.IdealPieces
import proofs.«109850_j88905823027438_1_alg».proof.Proof.IdealFinal
import proofs.«109850_j88905823027438_1_alg».proof.Proof.IdealPay
import proofs.«109850_j88905823027438_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.MatBias

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator's recurrence within a row block (any float instance) -/

/-- The three input blocks at a grid position, at their literal types. -/
abbrev b0 (c : Dev nD) (t : Fin cfg0.N) : Vec F S512x512 .bf16 := iblk m c 0 t
abbrev b1 (c : Dev nD) (t : Fin cfg0.N) : Vec F S512x2048 .bf16 := iblk m c 1 t
abbrev b2 (c : Dev nD) (t : Fin cfg0.N) : Vec F S1x2048 .f32 := iblk m c 2 t

/-- At a first reduction step the accumulator ends at the zero block plus the block product. -/
theorem acc_reset (c : Dev nD) (t : Fin cfg0.N) (h0 : t.val % 4 = 0) :
    (outsAt0 m c t.val t.isLt).2 = k0_pay2 (k0_pay1 (F := F)) (b0 m c t) (b1 m c t) := by
  have h1 : ¬t.val % 4 = 3 := by omega
  rw [outsAt0_A m c t h0 h1]
  dsimp only
  exact sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At any later reduction step it gains the block product. -/
theorem acc_step (c : Dev nD) (n : ℕ) (hn : n + 1 < cfg0.N) (h0 : ¬(n + 1) % 4 = 0) :
    (outsAt0 m c (n + 1) hn).2
      = k0_pay2 (outsAt0 m c n (Nat.lt_of_succ_lt hn)).2 (b0 m c ⟨n + 1, hn⟩) (b1 m c ⟨n + 1, hn⟩) := by
  by_cases h1 : (n + 1) % 4 = 3
  · rw [outsAt0_C m c ⟨n + 1, hn⟩ h0 h1]
    dsimp only
    exact sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2
  · rw [outsAt0_B m c ⟨n + 1, hn⟩ h0 h1]
    dsimp only
    exact sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 m c n (Nat.lt_of_succ_lt hn)).2

/-- At a last reduction step the output's buffer ends at the accumulator's new contents plus the bias row. -/
theorem out_last (c : Dev nD) (n : ℕ) (hn : n + 1 < cfg0.N) (h1 : (n + 1) % 4 = 3) :
    (outsAt0 m c (n + 1) hn).1
      = k0_pay3 (k0_pay2 (outsAt0 m c n (Nat.lt_of_succ_lt hn)).2 (b0 m c ⟨n + 1, hn⟩) (b1 m c ⟨n + 1, hn⟩)) (b2 m c ⟨n + 1, hn⟩) := by
  have h0 : ¬(n + 1) % 4 = 0 := by omega
  rw [outsAt0_C m c ⟨n + 1, hn⟩ h0 h1]
  dsimp only
  exact out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 m c n (Nat.lt_of_succ_lt hn)).2

end Cert.KernelIdeal.Hand

/-! ## At the ideal instance: the output array -/

namespace Cert.KernelIdeal.Hand

open Idealize.ShloMosaic Idealize.ShloMosaic.TcCoe Idealize.SL.Sem
open Cert.KernelIdeal Cert.KernelIdeal.Gen Idealize.ShloMosaic.ValueIdx Cert.MatBias Cert.KernelIdeal.Pay

variable (m : (ℓ : Loc nD τ sig) → Buf (Elt Ideal) ℓ)

/-- The three pipeline operands at the region's entry, at their literal types. -/
abbrev xarr (c : Dev nD) : Vec Ideal S8192x2048 .bf16 := V m c main_v25
abbrev harr (c : Dev nD) : Vec Ideal S2048x2048 .bf16 := V m c main_v26
abbrev barr (c : Dev nD) : Vec Ideal S1x2048 .f32 := V m c main_v27

theorem b0_apply (c : Dev nD) (t : Fin cfg0.N) (r j : Fin 512) :
    b0 m c t (ix2 r j) = xarr m c (ix2 (rowOf t r) (colOf t j)) := iblk0_apply m c t r j
theorem b1_apply (c : Dev nD) (t : Fin cfg0.N) (j : Fin 512) (n : Fin 2048) :
    b1 m c t (ix2 j n) = harr m c (ix2 (colOf t j) n) := iblk1_apply m c t j n
theorem b2_apply (c : Dev nD) (t : Fin cfg0.N) (z : Fin 1) (n : Fin 2048) :
    b2 m c t (ix2 z n) = barr m c (ix2 z n) := iblk2_apply m c t z n

/-- The kernel program's result as one function of its three pipeline operands at the region's entry: the inner
    product of a row of the left operand with a column of the right operand, plus the bias row's entry. -/
def kernelOut (c : Dev nD) : Buf (Elt Ideal) ((c : Thread nD τ).loc main_v28) :=
  fun (jj : S8192x2048.Idx) => (∑ kk : Fin 2048, (xarr m c (ix2 (jj 0) kk) : EReal) * (harr m c (ix2 kk (jj 1)) : EReal))
      + (barr m c (ix2 (0 : Fin 1) (jj 1)) : EReal)

/-- One block product read through the operand arrays: quarter `a` of the inner product. -/
theorem block_product (c : Dev nD) (t : Fin cfg0.N) (a : Fin 4) (ha : t.val % 4 = a.val) (R : Fin 8192)
    (r : Fin 512) (hrow : rowOf t r = R) (n : Fin 2048) :
    (∑ j : Fin 512, (b0 m c t (ix2 r j) : EReal) * (b1 m c t (ix2 j n) : EReal))
      = ∑ j : Fin 512, (xarr m c (ix2 R (blk a j)) : EReal) * (harr m c (ix2 (blk a j) n) : EReal) := by
  refine Finset.sum_congr rfl fun j _ => ?_
  have hc : colOf t j = blk a j := Fin.ext (by show 512 * (t.val % 4) + j.val = 512 * a.val + j.val; rw [ha])
  rw [b0_apply, b1_apply, hrow, hc]

/-- What a write-back position stored, at row `r` and column `n`. -/
theorem stored_apply (c : Dev nD) (t : Fin cfg0.N) (h3 : t.val % 4 = 3) (r : Fin 512) (n : Fin 2048) :
    ((outsAt0 m c t.val t.isLt).1 : Vec Ideal S512x2048 .f32) (ix2 r n) = (kernelOut m c : Vec Ideal S8192x2048 .f32) (ix2 (rowOf t r) n) := by
  obtain ⟨tv, ht⟩ := t
  obtain ⟨n0, rfl⟩ : ∃ n0, tv = n0 + 1 + 1 + 1 := ⟨tv - 3, by dsimp only at h3; omega⟩
  dsimp only at h3
  have hN : cfg0.N = 64 := N_0
  have l2 : n0 + 1 + 1 < cfg0.N := by omega
  have l1 : n0 + 1 < cfg0.N := by omega
  have l0 : n0 < cfg0.N := by omega
  have e3 := out_last m c (n0 + 1 + 1) ht (by omega)
  have e2 := acc_step m c (n0 + 1) l2 (by omega)
  have e1 := acc_step m c n0 l1 (by omega)
  have e0 := acc_reset m c ⟨n0, l0⟩ (by dsimp only; omega)
  dsimp only at e0
  rw [e3, e2, e1, e0, pay3_apply, pay2_apply, pay2_apply, pay2_apply, pay2_apply, pay1_apply]
  have hrow : ∀ (s : Fin cfg0.N), s.val / 4 = (n0 + 1 + 1 + 1) / 4 → rowOf s r = rowOf ⟨n0 + 1 + 1 + 1, ht⟩ r := fun s hs =>
    Fin.ext (by show 512 * (s.val / 4) + r.val = 512 * ((n0 + 1 + 1 + 1) / 4) + r.val; rw [hs])
  rw [block_product m c ⟨n0, l0⟩ 0 (by dsimp only; omega) (rowOf ⟨n0 + 1 + 1 + 1, ht⟩ r) r (hrow _ (by dsimp only; omega)) n,
    block_product m c ⟨n0 + 1, l1⟩ 1 (by dsimp only; omega) (rowOf ⟨n0 + 1 + 1 + 1, ht⟩ r) r (hrow _ (by dsimp only; omega)) n,
    block_product m c ⟨n0 + 1 + 1, l2⟩ 2 (by dsimp only; omega) (rowOf ⟨n0 + 1 + 1 + 1, ht⟩ r) r (hrow _ (by dsimp only; omega)) n,
    block_product m c ⟨n0 + 1 + 1 + 1, ht⟩ 3 (by dsimp only; omega) (rowOf ⟨n0 + 1 + 1 + 1, ht⟩ r) r rfl n]
  rw [sum_blocks (fun kk => (xarr m c (ix2 (rowOf ⟨n0 + 1 + 1 + 1, ht⟩ r) kk) : EReal) * (harr m c (ix2 kk n) : EReal)), b2_apply]
  rfl

/-- The output array after the run. -/
theorem final (c : Dev nD) : (dats m 0 c).arrAt 3 cfg0.N = kernelOut m c :=
  final_of m c (kernelOut m c) (fun t h3 r n => stored_apply m c t h3 r n)

end Cert.KernelIdeal.Hand

end
-- ==== Proof.IdealStages.lean ====
/- The kernel program's host operations one stage at a time, and what its three pipeline operands hold when the
   region is entered: the input narrowed to bf16, the permuted Hamilton matrix (the contents of the thirty-first
   operation's result, kept folded) narrowed to bf16, and the bias as one row. -/
import proofs.«109850_j88905823027438_1_alg».proof.Proof.IdealKit
import proofs.«109850_j88905823027438_1_alg».proof.Proof.LibStages

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One operation at a time -/

theorem stK0 (V : Valuation τ sig (Elt F)) :
    after ((hostOps0 (F := F)).take 1) V = (StableHlo.nullary main_c (fun i => lit0 (S2048.rowMajor i))).result (after ((hostOps0 (F := F)).take 0) V) := by
  rw [after_take_succ]; rfl
theorem stK1 (V : Valuation τ sig (Elt F)) :
    after ((hostOps0 (F := F)).take 2) V = (StableHlo.nullary main_c_0 (constantI S2048 1 0#1)).result (after ((hostOps0 (F := F)).take 1) V) := by
  rw [after_take_succ]; rfl
theorem stK2 (V : Valuation τ sig (Elt F)) :
    after ((hostOps0 (F := F)).take 3) V = (StableHlo.nullary main_c_1 (fun i => lit1 (S2048.rowMajor i))).result (after ((hostOps0 (F := F)).take 2) V) := by
  rw [after_take_succ]; rfl
theorem stK3 (V : Valuation τ sig (Elt F)) :
    after ((hostOps0 (F := F)).take 4) V = (StableHlo.nullary main_c_2 (constantI S2048 1 0#1)).result (after ((hostOps0 (F := F)).take 3) V) := by
  rw [after_take_succ]; rfl
theorem stK4 (V : Valuation τ sig (Elt F)) :
    after ((hostOps0 (F := F)).take 5) V = (StableHlo.unary main_arg1 main_v0 ((extractStridedSlice S512x512 ![0, 0] · slices_S512x2048_S512x512_0_0) : (⟨S512x2048, .f32⟩ : BufTy).Contents (Elt F) → (⟨S512x512, .f32⟩ : BufTy).Contents (Elt F))).result (after ((hostOps0 (F := F)).take 4) V) := by
  rw [after_take_succ]; rfl
theorem stK5 (V : Valuation τ sig (Elt F)) :
    after ((hostOps0 (F := F)).take 6) V = (StableHlo.unary main_arg1 main_v1 ((extractStridedSlice S512x512 ![0, 512] · slices_S512x2048_S512x512_0_512) : (⟨S512x2048, .f32⟩ : BufTy).Contents (Elt F) → (⟨S512x512, .f32⟩ : BufTy).Contents (Elt F))).result (after ((hostOps0 (F := F)).take 5) V) := by
  rw [after_take_succ]; rfl
theorem stK6 (V : Valuation τ sig (Elt F)) :
    after ((hostOps0 (F := F)).take 7) V = (StableHlo.unary main_arg1 main_v2 ((extractStridedSlice S512x512 ![0, 1024] · slices_S512x2048_S512x512_0_1024) : (⟨S512x2048, .f32⟩ : BufTy).Contents (Elt F) → (⟨S512x512, .f32⟩ : BufTy).Contents (Elt F))).result (after ((hostOps0 (F := F)).take 6) V) := by
  rw [after_take_succ]; rfl
theorem stK7 (V : Valuation τ sig (Elt F)) :
    after ((hostOps0 (F := F)).take 8) V = (StableHlo.unary main_arg1 main_v3 ((extractStridedSlice S512x512 ![0, 1536] · slices_S512x2048_S512x512_0_1536) : (⟨S512x2048, .f32⟩ : BufTy).Contents (Elt F) → (⟨S512x512, .f32⟩ : BufTy).Contents (Elt F))).result (after ((hostOps0 (F := F)).take 7) V) := by
  rw [after_take_succ]; rfl
theorem stK8 (V : Valuation τ sig (Elt F)) :
    after ((hostOps0 (F := F)).take 9) V = (StableHlo.unary main_v1 main_v4 (Host.negf : (⟨S512x512, .f32⟩ : BufTy).Contents (Elt F) → (⟨S512x512, .f32⟩ : BufTy).Contents (Elt F))).result (after ((hostOps0 (F := F)).take 8) V) := by
  rw [after_take_succ]; rfl
theorem stK9 (V : Valuation τ sig (Elt F)) :
    after ((hostOps0 (F := F)).take 10) V = (StableHlo.unary main_v2 main_v5 (Host.negf : (⟨S512x512, .f32⟩ : BufTy).Contents (Elt F) → (⟨S512x512, .f32⟩ : BufTy).Contents (Elt F))).result (after ((hostOps0 (F := F)).take 9) V) := by
  rw [after_take_succ]; rfl
theorem stK10 (V : Valuation τ sig (Elt F)) :
    after ((hostOps0 (F := F)).take 11) V = (StableHlo.unary main_v3 main_v6 (Host.negf : (⟨S512x512, .f32⟩ : BufTy).Contents (Elt F) → (⟨S512x512, .f32⟩ : BufTy).Contents (Elt F))).result (after ((hostOps0 (F := F)).take 10) V) := by
  rw [after_take_succ]; rfl
theorem stK11 (V : Valuation τ sig (Elt F)) :
    after ((hostOps0 (F := F)).take 12) V = (StableHlo.nary ![main_v0, main_v4, main_v5, main_v6] main_v7 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 11) V) := by
  rw [after_take_succ]; rfl
theorem stK12 (V : Valuation τ sig (Elt F)) :
    after ((hostOps0 (F := F)).take 13) V = (StableHlo.unary main_v3 main_v8 (Host.negf : (⟨S512x512, .f32⟩ : BufTy).Contents (Elt F) → (⟨S512x512, .f32⟩ : BufTy).Contents (Elt F))).result (after ((hostOps0 (F := F)).take 12) V) := by
  rw [after_take_succ]; rfl
theorem stK13 (V : Valuation τ sig (Elt F)) :
    after ((hostOps0 (F := F)).take 14) V = (StableHlo.nary ![main_v1, main_v0, main_v8, main_v2] main_v9 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 13) V) := by
  rw [after_take_succ]; rfl
theorem stK14 (V : Valuation τ sig (Elt F)) :
    after ((hostOps0 (F := F)).take 15) V = (StableHlo.unary main_v1 main_v10 (Host.negf : (⟨S512x512, .f32⟩ : BufTy).Contents (Elt F) → (⟨S512x512, .f32⟩ : BufTy).Contents (Elt F))).result (after ((hostOps0 (F := F)).take 14) V) := by
  rw [after_take_succ]; rfl
theorem stK15 (V : Valuation τ sig (Elt F)) :
    after ((hostOps0 (F := F)).take 16) V = (StableHlo.nary ![main_v2, main_v3, main_v0, main_v10] main_v11 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 15) V) := by
  rw [after_take_succ]; rfl
theorem stK16 (V : Valuation τ sig (Elt F)) :
    after ((hostOps0 (F := F)).take 17) V = (StableHlo.unary main_v2 main_v12 (Host.negf : (⟨S512x512, .f32⟩ : BufTy).Contents (Elt F) → (⟨S512x512, .f32⟩ : BufTy).Contents (Elt F))).result (after ((hostOps0 (F := F)).take 16) V) := by
  rw [after_take_succ]; rfl
theorem stK17 (V : Valuation τ sig (Elt F)) :
    after ((hostOps0 (F := F)).take 18) V = (StableHlo.nary ![main_v3, main_v12, main_v1, main_v0] main_v13 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 17) V) := by
  rw [after_take_succ]; rfl
theorem stK18 (V : Valuation τ sig (Elt F)) :
    after ((hostOps0 (F := F)).take 19) V = (StableHlo.nary ![main_v7, main_v9, main_v11, main_v13] main_v14 (fun u => concatenate S2048x2048 0 [⟨S512x2048, u 0⟩, ⟨S512x2048, u 1⟩, ⟨S512x2048, u 2⟩, ⟨S512x2048, u 3⟩] concatenates_S512x2048_S512x2048_S512x2048_S512x2048_S2048x2048_d0)).result (after ((hostOps0 (F := F)).take 18) V) := by
  rw [after_take_succ]; rfl
theorem stK19 (V : Valuation τ sig (Elt F)) :
    after ((hostOps0 (F := F)).take 20) V = (StableHlo.nullary main_c_3 (constantI S_ 32 2048#32)).result (after ((hostOps0 (F := F)).take 19) V) := by
  rw [after_take_succ]; rfl
theorem stK20 (V : Valuation τ sig (Elt F)) :
    after ((hostOps0 (F := F)).take 21) V = (StableHlo.unary main_c_3 main_v15 (broadcastInDim S2048 ![] bcast_S_S2048 : (⟨S_, .i32⟩ : BufTy).Contents (Elt F) → (⟨S2048, .i32⟩ : BufTy).Contents (Elt F))).result (after ((hostOps0 (F := F)).take 20) V) := by
  rw [after_take_succ]; rfl
theorem stK21 (V : Valuation τ sig (Elt F)) :
    after ((hostOps0 (F := F)).take 22) V = (StableHlo.binary main_c main_v15 main_v16 (addi : (⟨S2048, .i32⟩ : BufTy).Contents (Elt F) → (⟨S2048, .i32⟩ : BufTy).Contents (Elt F) → (⟨S2048, .i32⟩ : BufTy).Contents (Elt F))).result (after ((hostOps0 (F := F)).take 21) V) := by
  rw [after_take_succ]; rfl
theorem stK22 (V : Valuation τ sig (Elt F)) :
    after ((hostOps0 (F := F)).take 23) V = (StableHlo.ternary main_c_0 main_v16 main_c main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((hostOps0 (F := F)).take 22) V) := by
  rw [after_take_succ]; rfl
theorem stK23 (V : Valuation τ sig (Elt F)) :
    after ((hostOps0 (F := F)).take 24) V = (StableHlo.unary main_v17 main_v18 (broadcastInDim S2048x1 ![0] bcast_S2048_S2048x1_0 : (⟨S2048, .i32⟩ : BufTy).Contents (Elt F) → (⟨S2048x1, .i32⟩ : BufTy).Contents (Elt F))).result (after ((hostOps0 (F := F)).take 23) V) := by
  rw [after_take_succ]; rfl
theorem stK24 (V : Valuation τ sig (Elt F)) :
    after ((hostOps0 (F := F)).take 25) V = (StableHlo.binary main_v14 main_v18 main_v19 ((fun x i => Host.gather gather_S2048x2048_S2048x1_S2048x2048_1_0_n_n_0_1_12048 x i) : (⟨S2048x2048, .f32⟩ : BufTy).Contents (Elt F) → (⟨S2048x1, .i32⟩ : BufTy).Contents (Elt F) → (⟨S2048x2048, .f32⟩ : BufTy).Contents (Elt F))).result (after ((hostOps0 (F := F)).take 24) V) := by
  rw [after_take_succ]; rfl
theorem stK25 (V : Valuation τ sig (Elt F)) :
    after ((hostOps0 (F := F)).take 26) V = (StableHlo.nullary main_c_4 (constantI S_ 32 2048#32)).result (after ((hostOps0 (F := F)).take 25) V) := by
  rw [after_take_succ]; rfl
theorem stK26 (V : Valuation τ sig (Elt F)) :
    after ((hostOps0 (F := F)).take 27) V = (StableHlo.unary main_c_4 main_v20 (broadcastInDim S2048 ![] bcast_S_S2048 : (⟨S_, .i32⟩ : BufTy).Contents (Elt F) → (⟨S2048, .i32⟩ : BufTy).Contents (Elt F))).result (after ((hostOps0 (F := F)).take 26) V) := by
  rw [after_take_succ]; rfl
theorem stK27 (V : Valuation τ sig (Elt F)) :
    after ((hostOps0 (F := F)).take 28) V = (StableHlo.binary main_c_1 main_v20 main_v21 (addi : (⟨S2048, .i32⟩ : BufTy).Contents (Elt F) → (⟨S2048, .i32⟩ : BufTy).Contents (Elt F) → (⟨S2048, .i32⟩ : BufTy).Contents (Elt F))).result (after ((hostOps0 (F := F)).take 27) V) := by
  rw [after_take_succ]; rfl
theorem stK28 (V : Valuation τ sig (Elt F)) :
    after ((hostOps0 (F := F)).take 29) V = (StableHlo.ternary main_c_2 main_v21 main_c_1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((hostOps0 (F := F)).take 28) V) := by
  rw [after_take_succ]; rfl
theorem stK29 (V : Valuation τ sig (Elt F)) :
    after ((hostOps0 (F := F)).take 30) V = (StableHlo.unary main_v22 main_v23 (broadcastInDim S2048x1 ![0] bcast_S2048_S2048x1_0 : (⟨S2048, .i32⟩ : BufTy).Contents (Elt F) → (⟨S2048x1, .i32⟩ : BufTy).Contents (Elt F))).result (after ((hostOps0 (F := F)).take 29) V) := by
  rw [after_take_succ]; rfl
theorem stK30 (V : Valuation τ sig (Elt F)) :
    after ((hostOps0 (F := F)).take 31) V = (StableHlo.binary main_v19 main_v23 main_v24 ((fun x i => Host.gather gather_S2048x2048_S2048x1_S2048x2048_0_1_n_n_1_1_20481 x i) : (⟨S2048x2048, .f32⟩ : BufTy).Contents (Elt F) → (⟨S2048x1, .i32⟩ : BufTy).Contents (Elt F) → (⟨S2048x2048, .f32⟩ : BufTy).Contents (Elt F))).result (after ((hostOps0 (F := F)).take 30) V) := by
  rw [after_take_succ]; rfl

/-! ## The three operands at the region's entry -/

/-- The permuted Hamilton matrix as the host operations leave it, from the buffers' launch contents. -/
abbrev hamAt (W : Valuation τ sig (Elt F)) : FVec F S2048x2048 .f32 :=
  after ((hostOps0 (F := F)).take 31) W (Proc.devRef .tc main_v24)

/-- No operation of the Hamilton chain writes an argument. -/
theorem pre_arg0 (W : Valuation τ sig (Elt F)) : after ((hostOps0 (F := F)).take 31) W (Proc.devRef .tc main_arg0) = W (Proc.devRef .tc main_arg0) :=
  after_of_forall_not_mem (b := Proc.devRef .tc main_arg0) _ _ (List.forall_iff_forall_mem.mp (by
    simp only [hostOps0, List.take, List.Forall, StableHlo.nullary_writes, StableHlo.unary_writes, StableHlo.binary_writes, StableHlo.ternary_writes, StableHlo.nary_writes, Finset.mem_singleton]
    repeat' apply And.intro
    all_goals exact StableHlo.devRef_ne_of_ne (by decide)))
theorem pre_arg2 (W : Valuation τ sig (Elt F)) : after ((hostOps0 (F := F)).take 31) W (Proc.devRef .tc main_arg2) = W (Proc.devRef .tc main_arg2) :=
  after_of_forall_not_mem (b := Proc.devRef .tc main_arg2) _ _ (List.forall_iff_forall_mem.mp (by
    simp only [hostOps0, List.take, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- The left operand: the input, narrowed. -/
theorem V_v25 (c : Dev nD) : V m c main_v25 = truncf .bf16 (m ((c : Thread nD τ).loc main_arg0)) bitsLt_bf16_f32 := by
  show after (hostOps0 (F := F)) (fun b => m (c, b)) (Proc.devRef .tc main_v25) = _
  rw [after_take_drop _ 31]
  show after [StableHlo.unary main_arg0 main_v25 ((truncf .bf16 · bitsLt_bf16_f32) : (⟨S8192x2048, .f32⟩ : BufTy).Contents (Elt F) → (⟨S8192x2048, .bf16⟩ : BufTy).Contents (Elt F)), StableHlo.unary main_v24 main_v26 ((truncf .bf16 · bitsLt_bf16_f32) : (⟨S2048x2048, .f32⟩ : BufTy).Contents (Elt F) → (⟨S2048x2048, .bf16⟩ : BufTy).Contents (Elt F)), StableHlo.reshape main_arg2 main_v27 rfl shapeCasts_S2048_S1x2048] _ _ = _
  after_results
  rw [pre_arg0]

/-- The right operand: the permuted Hamilton matrix, narrowed. -/
theorem V_v26 (c : Dev nD) : V m c main_v26 = truncf .bf16 (hamAt (fun b => m (c, b))) bitsLt_bf16_f32 := by
  show after (hostOps0 (F := F)) (fun b => m (c, b)) (Proc.devRef .tc main_v26) = _
  rw [after_take_drop _ 31]
  show after [StableHlo.unary main_arg0 main_v25 ((truncf .bf16 · bitsLt_bf16_f32) : (⟨S8192x2048, .f32⟩ : BufTy).Contents (Elt F) → (⟨S8192x2048, .bf16⟩ : BufTy).Contents (Elt F)), StableHlo.unary main_v24 main_v26 ((truncf .bf16 · bitsLt_bf16_f32) : (⟨S2048x2048, .f32⟩ : BufTy).Contents (Elt F) → (⟨S2048x2048, .bf16⟩ : BufTy).Contents (Elt F)), StableHlo.reshape main_arg2 main_v27 rfl shapeCasts_S2048_S1x2048] _ _ = _
  after_results

/-- The bias operand: the bias as one row. -/
theorem V_v27 (c : Dev nD) : (V m c main_v27 : FVec F S1x2048 .f32) = shapeCast S1x2048 (m ((c : Thread nD τ).loc main_arg2)) shapeCasts_S2048_S1x2048 := by
  show after (hostOps0 (F := F)) (fun b => m (c, b)) (Proc.devRef .tc main_v27) = _
  rw [after_take_drop _ 31]
  show after [StableHlo.unary main_arg0 main_v25 ((truncf .bf16 · bitsLt_bf16_f32) : (⟨S8192x2048, .f32⟩ : BufTy).Contents (Elt F) → (⟨S8192x2048, .bf16⟩ : BufTy).Contents (Elt F)), StableHlo.unary main_v24 main_v26 ((truncf .bf16 · bitsLt_bf16_f32) : (⟨S2048x2048, .f32⟩ : BufTy).Contents (Elt F) → (⟨S2048x2048, .bf16⟩ : BufTy).Contents (Elt F)), StableHlo.reshape main_arg2 main_v27 rfl shapeCasts_S2048_S1x2048] _ _ = _
  after_results
  rw [pre_arg2]
  rfl

end Cert.KernelIdeal.Hand

end
-- ==== Proof.IdealBias.lean ====
/- The kernel program's bias operand: the bias vector reshaped to one row holds, at column n of that row, the
   vector's entry n. -/
import proofs.«109850_j88905823027438_1_alg».proof.Proof.Gen.KernelIdeal
import Idealize.ShloMosaic.Lib.ValueIdx
import Idealize.ShloMosaic.Lib.ValueLayout
import Idealize.ShloMosaic.Lib.Pipeline.Value

noncomputable section

namespace Cert.KernelIdeal.Bias

open Idealize.ShloMosaic Idealize.ShloMosaic.ValueIdx
open Cert.KernelIdeal Cert.KernelIdeal.Gen

variable {F : FTy → Type} [FloatOps F]

/-- A vector of 2048 entries cast to a 1 x 2048 row, read at column `n`. -/
theorem row_apply (b : FVec F S2048 .f32) (z : Fin 1) (n : Fin 2048) :
    (shapeCast S1x2048 b shapeCasts_S2048_S1x2048 : FVec F S1x2048 .f32) (ix2 z n) = b (ix1 n) :=
  -- The row-major position of (z, n) in a 1 x 2048 array is z * 2048 + n = n, since z = 0: the position of n in the vector.
  shapeCast_a_1a_apply b shapeCasts_S2048_S1x2048 z n

end Cert.KernelIdeal.Bias

end
-- ==== Proof.RefRead.lean ====
/- The reference's last three operations read at an index, at the ideal instance: the product of the input with a
   2048 x 2048 matrix is, at row R and column n, the sum over the 2048 contraction positions of the products of entries;
   the bias, broadcast first to a row and then down every row, is its entry n at every row. -/
import proofs.«109850_j88905823027438_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Read

open Idealize.ShloMosaic Idealize.ShloMosaic.ValueIdx
open Cert.ReferenceIdeal Cert.ReferenceIdeal.Gen

/-! ## The product's operand indices, one coordinate at a time

At result index `i` and contraction index `q` the left operand is read at (row of `i`, `q`) and the right operand at
(`q`, column of `i`): the record contracts the left operand's axis 1 with the right operand's axis 0, has no batch axis,
and keeps the left operand's axis 0 and the right operand's axis 1 as the result's two axes, in that order. -/

/-- Left operand, axis 0 is free: it carries the result's row. -/
theorem lhs_axis0 (i : S8192x2048.Idx) (q : dot_S8192x2048_S2048x2048_S8192x2048_1_0_0_1_n_n.contr.Idx) :
    (dot_S8192x2048_S2048x2048_S8192x2048_1_0_0_1_n_n.lhsIdx i q 0).val = (i 0).val := by
  unfold DotDims.lhsIdx
  rw [dif_neg (show ¬(0 : Fin S8192x2048.rank) ∈ dot_S8192x2048_S2048x2048_S8192x2048_1_0_0_1_n_n.lhsBatch by decide),
    dif_pos (show (0 : Fin S8192x2048.rank) ∈ dot_S8192x2048_S2048x2048_S8192x2048_1_0_0_1_n_n.lhsNonContracting by decide)]
  rfl

/-- Left operand, axis 1 is the one contracted axis: it carries the contraction position. -/
theorem lhs_axis1 (i : S8192x2048.Idx) (q : dot_S8192x2048_S2048x2048_S8192x2048_1_0_0_1_n_n.contr.Idx) :
    (dot_S8192x2048_S2048x2048_S8192x2048_1_0_0_1_n_n.lhsIdx i q 1).val = (q ⟨0, by decide⟩).val :=
  dot_S8192x2048_S2048x2048_S8192x2048_1_0_0_1_n_n.lhsIdx_val_of_single rfl i q

/-- Right operand, axis 0 is the one contracted axis: it carries the contraction position. -/
theorem rhs_axis0 (i : S8192x2048.Idx) (q : dot_S8192x2048_S2048x2048_S8192x2048_1_0_0_1_n_n.contr.Idx) :
    (dot_S8192x2048_S2048x2048_S8192x2048_1_0_0_1_n_n.rhsIdx i q 0).val = (q ⟨0, by decide⟩).val :=
  dot_S8192x2048_S2048x2048_S8192x2048_1_0_0_1_n_n.rhsIdx_val_of_single rfl i q

/-- Right operand, axis 1 is free: it carries the result's column (the result's second axis, after the left operand's
    one free axis). -/
theorem rhs_axis1 (i : S8192x2048.Idx) (q : dot_S8192x2048_S2048x2048_S8192x2048_1_0_0_1_n_n.contr.Idx) :
    (dot_S8192x2048_S2048x2048_S8192x2048_1_0_0_1_n_n.rhsIdx i q 1).val = (i 1).val := by
  unfold DotDims.rhsIdx
  rw [dif_neg (show ¬(1 : Fin S2048x2048.rank) ∈ dot_S8192x2048_S2048x2048_S8192x2048_1_0_0_1_n_n.rhsBatch by decide),
    dif_pos (show (1 : Fin S2048x2048.rank) ∈ dot_S8192x2048_S2048x2048_S8192x2048_1_0_0_1_n_n.rhsNonContracting by decide)]
  rfl

/-! ## The three operations at an index -/

/-- The product at row `R`, column `n`: the sum over the 2048 contraction positions. The contraction index has one
    coordinate, so the sum over it is the sum over that coordinate. -/
theorem dot_apply (x : FVec Ideal S8192x2048 .f32) (h : FVec Ideal S2048x2048 .f32) (R : Fin 8192) (n : Fin 2048) :
    (Host.dotGeneral dot_S8192x2048_S2048x2048_S8192x2048_1_0_0_1_n_n none x h : FVec Ideal S8192x2048 .f32) (ix2 R n)
      = ∑ k : Fin 2048, x (ix2 R k) * h (ix2 k n) := by
  simp only [Host.dotGeneral]
  rw [Ideal.dotGeneral_apply, ← Equiv.sum_comp (contrEquiv1 dot_S8192x2048_S2048x2048_S8192x2048_1_0_0_1_n_n 2048 rfl rfl).symm]
  refine Finset.sum_congr rfl fun k _ => ?_
  have hk := contrEquiv1_symm_val dot_S8192x2048_S2048x2048_S8192x2048_1_0_0_1_n_n 2048 rfl rfl k
  have el : dot_S8192x2048_S2048x2048_S8192x2048_1_0_0_1_n_n.lhsIdx (ix2 R n) ((contrEquiv1 dot_S8192x2048_S2048x2048_S8192x2048_1_0_0_1_n_n 2048 rfl rfl).symm k) = ix2 R k :=
    funext fun a => Fin.ext (by
      match a with
      | ⟨0, _⟩ => exact lhs_axis0 _ _
      | ⟨1, _⟩ => exact (lhs_axis1 _ _).trans hk)
  have er : dot_S8192x2048_S2048x2048_S8192x2048_1_0_0_1_n_n.rhsIdx (ix2 R n) ((contrEquiv1 dot_S8192x2048_S2048x2048_S8192x2048_1_0_0_1_n_n 2048 rfl rfl).symm k) = ix2 k n :=
    funext fun a => Fin.ext (by
      match a with
      | ⟨0, _⟩ => exact (rhs_axis0 _ _).trans hk
      | ⟨1, _⟩ => exact rhs_axis1 _ _)
  rw [el, er]

/-- The bias broadcast along axis 1 to one row, then down all 8192 rows, is its entry `n` at every row: the outer
    broadcast reads the one row at column `n` (the row axis has extent one, so it is read at 0), and the inner one reads
    the vector at the row's column. -/
theorem bias_apply (b : FVec Ideal S2048 .f32) (R : Fin 8192) (n : Fin 2048) :
    (broadcastInDim S8192x2048 ![0, 1] bcast_S1x2048_S8192x2048_0_1 (broadcastInDim S1x2048 ![1] bcast_S2048_S1x2048_1 b)
        : FVec Ideal S8192x2048 .f32) (ix2 R n) = b (ix1 n) := by
  refine (broadcastInDim_apply ![0, 1] bcast_S1x2048_S8192x2048_0_1 _ (ix2 R n) (ix2 (0 : Fin 1) n) ?_).trans ?_
  · intro a
    match a with
    | ⟨0, _⟩ => rfl
    | ⟨1, _⟩ => rfl
  · refine broadcastInDim_apply ![1] bcast_S2048_S1x2048_1 b (ix2 (0 : Fin 1) n) (ix1 n) ?_
    intro a
    match a with
    | ⟨0, _⟩ => rfl

/-- The reference's result at row `R`, column `n`, for any right-hand matrix `h`. -/
theorem out_apply (x : FVec Ideal S8192x2048 .f32) (h : FVec Ideal S2048x2048 .f32) (b : FVec Ideal S2048 .f32)
    (R : Fin 8192) (n : Fin 2048) :
    (addf (Host.dotGeneral dot_S8192x2048_S2048x2048_S8192x2048_1_0_0_1_n_n none x h)
        (broadcastInDim S8192x2048 ![0, 1] bcast_S1x2048_S8192x2048_0_1 (broadcastInDim S1x2048 ![1] bcast_S2048_S1x2048_1 b))
        : FVec Ideal S8192x2048 .f32) (ix2 R n)
      = (∑ k : Fin 2048, (x (ix2 R k) : EReal) * (h (ix2 k n) : EReal)) + (b (ix1 n) : EReal) := by
  rw [addf_apply, dot_apply, bias_apply]

end Cert.ReferenceIdeal.Read

end
-- ==== Proof.IdealSsa.lean ====
/- The kernel program's Hamilton chain, one operation at a time: each result buffer's contents after the chain are the
   operation's function of its operands' contents after the chain (no later operation writes a buffer again). -/
import proofs.«109850_j88905823027438_1_alg».proof.Proof.IdealStages

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- No operation of the chain writes the weight. -/
theorem pre_arg1 (W : Valuation τ sig (Elt F)) : after ((hostOps0 (F := F)).take 31) W (Proc.devRef .tc main_arg1) = W (Proc.devRef .tc main_arg1) :=
  after_of_forall_not_mem (b := Proc.devRef .tc main_arg1) _ _ (List.forall_iff_forall_mem.mp (by
    simp only [hostOps0, List.take, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- After the chain, main_c holds what operation 0 computes from the contents after the chain. -/
theorem fin0 (V : Valuation τ sig (Elt F)) :
    after ((hostOps0 (F := F)).take 31) V (Proc.devRef .tc main_c)
      = (StableHlo.nullary main_c (fun i => lit0 (S2048.rowMajor i))).result (after ((hostOps0 (F := F)).take 31) V) (Proc.devRef .tc main_c) := by
  rw [nullary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6]; repeat (rw [unary_result_ne]; rotate_left; decide)
  rw [stK5]; repeat (rw [unary_result_ne]; rotate_left; decide)
  rw [stK4]; repeat (rw [unary_result_ne]; rotate_left; decide)
  rw [stK3]; repeat (rw [nullary_result_ne]; rotate_left; decide)
  rw [stK2]; repeat (rw [nullary_result_ne]; rotate_left; decide)
  rw [stK1]; repeat (rw [nullary_result_ne]; rotate_left; decide)
  rw [stK0, nullary_result]

/-- After the chain, main_c_0 holds what operation 1 computes from the contents after the chain. -/
theorem fin1 (V : Valuation τ sig (Elt F)) :
    after ((hostOps0 (F := F)).take 31) V (Proc.devRef .tc main_c_0)
      = (StableHlo.nullary main_c_0 (constantI S2048 1 0#1)).result (after ((hostOps0 (F := F)).take 31) V) (Proc.devRef .tc main_c_0) := by
  rw [nullary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6]; repeat (rw [unary_result_ne]; rotate_left; decide)
  rw [stK5]; repeat (rw [unary_result_ne]; rotate_left; decide)
  rw [stK4]; repeat (rw [unary_result_ne]; rotate_left; decide)
  rw [stK3]; repeat (rw [nullary_result_ne]; rotate_left; decide)
  rw [stK2]; repeat (rw [nullary_result_ne]; rotate_left; decide)
  rw [stK1, nullary_result]

/-- After the chain, main_c_1 holds what operation 2 computes from the contents after the chain. -/
theorem fin2 (V : Valuation τ sig (Elt F)) :
    after ((hostOps0 (F := F)).take 31) V (Proc.devRef .tc main_c_1)
      = (StableHlo.nullary main_c_1 (fun i => lit1 (S2048.rowMajor i))).result (after ((hostOps0 (F := F)).take 31) V) (Proc.devRef .tc main_c_1) := by
  rw [nullary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6]; repeat (rw [unary_result_ne]; rotate_left; decide)
  rw [stK5]; repeat (rw [unary_result_ne]; rotate_left; decide)
  rw [stK4]; repeat (rw [unary_result_ne]; rotate_left; decide)
  rw [stK3]; repeat (rw [nullary_result_ne]; rotate_left; decide)
  rw [stK2, nullary_result]

/-- After the chain, main_c_2 holds what operation 3 computes from the contents after the chain. -/
theorem fin3 (V : Valuation τ sig (Elt F)) :
    after ((hostOps0 (F := F)).take 31) V (Proc.devRef .tc main_c_2)
      = (StableHlo.nullary main_c_2 (constantI S2048 1 0#1)).result (after ((hostOps0 (F := F)).take 31) V) (Proc.devRef .tc main_c_2) := by
  rw [nullary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6]; repeat (rw [unary_result_ne]; rotate_left; decide)
  rw [stK5]; repeat (rw [unary_result_ne]; rotate_left; decide)
  rw [stK4]; repeat (rw [unary_result_ne]; rotate_left; decide)
  rw [stK3, nullary_result]

/-- After the chain, main_v0 holds what operation 4 computes from the contents after the chain. -/
theorem fin4 (V : Valuation τ sig (Elt F)) :
    after ((hostOps0 (F := F)).take 31) V (Proc.devRef .tc main_v0)
      = (StableHlo.unary main_arg1 main_v0 ((extractStridedSlice S512x512 ![0, 0] · slices_S512x2048_S512x512_0_0) : (⟨S512x2048, .f32⟩ : BufTy).Contents (Elt F) → (⟨S512x512, .f32⟩ : BufTy).Contents (Elt F))).result (after ((hostOps0 (F := F)).take 31) V) (Proc.devRef .tc main_v0) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6]; repeat (rw [unary_result_ne]; rotate_left; decide)
  rw [stK5]; repeat (rw [unary_result_ne]; rotate_left; decide)
  rw [stK4, unary_result]
  repeat (rw [unary_result_ne]; rotate_left; decide)

/-- After the chain, main_v1 holds what operation 5 computes from the contents after the chain. -/
theorem fin5 (V : Valuation τ sig (Elt F)) :
    after ((hostOps0 (F := F)).take 31) V (Proc.devRef .tc main_v1)
      = (StableHlo.unary main_arg1 main_v1 ((extractStridedSlice S512x512 ![0, 512] · slices_S512x2048_S512x512_0_512) : (⟨S512x2048, .f32⟩ : BufTy).Contents (Elt F) → (⟨S512x512, .f32⟩ : BufTy).Contents (Elt F))).result (after ((hostOps0 (F := F)).take 31) V) (Proc.devRef .tc main_v1) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6]; repeat (rw [unary_result_ne]; rotate_left; decide)
  rw [stK5, unary_result]
  repeat (rw [unary_result_ne]; rotate_left; decide)

/-- After the chain, main_v2 holds what operation 6 computes from the contents after the chain. -/
theorem fin6 (V : Valuation τ sig (Elt F)) :
    after ((hostOps0 (F := F)).take 31) V (Proc.devRef .tc main_v2)
      = (StableHlo.unary main_arg1 main_v2 ((extractStridedSlice S512x512 ![0, 1024] · slices_S512x2048_S512x512_0_1024) : (⟨S512x2048, .f32⟩ : BufTy).Contents (Elt F) → (⟨S512x512, .f32⟩ : BufTy).Contents (Elt F))).result (after ((hostOps0 (F := F)).take 31) V) (Proc.devRef .tc main_v2) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7]; repeat (rw [unary_result_ne]; rotate_left; decide)
  rw [stK6, unary_result]
  repeat (rw [unary_result_ne]; rotate_left; decide)

/-- After the chain, main_v3 holds what operation 7 computes from the contents after the chain. -/
theorem fin7 (V : Valuation τ sig (Elt F)) :
    after ((hostOps0 (F := F)).take 31) V (Proc.devRef .tc main_v3)
      = (StableHlo.unary main_arg1 main_v3 ((extractStridedSlice S512x512 ![0, 1536] · slices_S512x2048_S512x512_0_1536) : (⟨S512x2048, .f32⟩ : BufTy).Contents (Elt F) → (⟨S512x512, .f32⟩ : BufTy).Contents (Elt F))).result (after ((hostOps0 (F := F)).take 31) V) (Proc.devRef .tc main_v3) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8]; repeat (rw [unary_result_ne]; rotate_left; decide)
  rw [stK7, unary_result]
  repeat (rw [unary_result_ne]; rotate_left; decide)

/-- After the chain, main_v4 holds what operation 8 computes from the contents after the chain. -/
theorem fin8 (V : Valuation τ sig (Elt F)) :
    after ((hostOps0 (F := F)).take 31) V (Proc.devRef .tc main_v4)
      = (StableHlo.unary main_v1 main_v4 (Host.negf : (⟨S512x512, .f32⟩ : BufTy).Contents (Elt F) → (⟨S512x512, .f32⟩ : BufTy).Contents (Elt F))).result (after ((hostOps0 (F := F)).take 31) V) (Proc.devRef .tc main_v4) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9]; repeat (rw [unary_result_ne]; rotate_left; decide)
  rw [stK8, unary_result]
  repeat (rw [unary_result_ne]; rotate_left; decide)

/-- After the chain, main_v5 holds what operation 9 computes from the contents after the chain. -/
theorem fin9 (V : Valuation τ sig (Elt F)) :
    after ((hostOps0 (F := F)).take 31) V (Proc.devRef .tc main_v5)
      = (StableHlo.unary main_v2 main_v5 (Host.negf : (⟨S512x512, .f32⟩ : BufTy).Contents (Elt F) → (⟨S512x512, .f32⟩ : BufTy).Contents (Elt F))).result (after ((hostOps0 (F := F)).take 31) V) (Proc.devRef .tc main_v5) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10]; repeat (rw [unary_result_ne]; rotate_left; decide)
  rw [stK9, unary_result]
  repeat (rw [unary_result_ne]; rotate_left; decide)

/-- After the chain, main_v6 holds what operation 10 computes from the contents after the chain. -/
theorem fin10 (V : Valuation τ sig (Elt F)) :
    after ((hostOps0 (F := F)).take 31) V (Proc.devRef .tc main_v6)
      = (StableHlo.unary main_v3 main_v6 (Host.negf : (⟨S512x512, .f32⟩ : BufTy).Contents (Elt F) → (⟨S512x512, .f32⟩ : BufTy).Contents (Elt F))).result (after ((hostOps0 (F := F)).take 31) V) (Proc.devRef .tc main_v6) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11]; repeat (rw [nary_result_ne]; rotate_left; decide)
  rw [stK10, unary_result]
  repeat (rw [unary_result_ne]; rotate_left; decide)

/-- After the chain, main_v7 holds what operation 11 computes from the contents after the chain. -/
theorem fin11 (V : Valuation τ sig (Elt F)) :
    after ((hostOps0 (F := F)).take 31) V (Proc.devRef .tc main_v7)
      = (StableHlo.nary ![main_v0, main_v4, main_v5, main_v6] main_v7 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 31) V) (Proc.devRef .tc main_v7) := by
  rw [nary4_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12]; repeat (rw [unary_result_ne]; rotate_left; decide)
  rw [stK11, nary4_result]
  repeat (rw [nary_result_ne]; rotate_left; decide)

/-- After the chain, main_v8 holds what operation 12 computes from the contents after the chain. -/
theorem fin12 (V : Valuation τ sig (Elt F)) :
    after ((hostOps0 (F := F)).take 31) V (Proc.devRef .tc main_v8)
      = (StableHlo.unary main_v3 main_v8 (Host.negf : (⟨S512x512, .f32⟩ : BufTy).Contents (Elt F) → (⟨S512x512, .f32⟩ : BufTy).Contents (Elt F))).result (after ((hostOps0 (F := F)).take 31) V) (Proc.devRef .tc main_v8) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13]; repeat (rw [nary_result_ne]; rotate_left; decide)
  rw [stK12, unary_result]
  repeat (rw [unary_result_ne]; rotate_left; decide)

/-- After the chain, main_v9 holds what operation 13 computes from the contents after the chain. -/
theorem fin13 (V : Valuation τ sig (Elt F)) :
    after ((hostOps0 (F := F)).take 31) V (Proc.devRef .tc main_v9)
      = (StableHlo.nary ![main_v1, main_v0, main_v8, main_v2] main_v9 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 31) V) (Proc.devRef .tc main_v9) := by
  rw [nary4_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14]; repeat (rw [unary_result_ne]; rotate_left; decide)
  rw [stK13, nary4_result]
  repeat (rw [nary_result_ne]; rotate_left; decide)

/-- After the chain, main_v10 holds what operation 14 computes from the contents after the chain. -/
theorem fin14 (V : Valuation τ sig (Elt F)) :
    after ((hostOps0 (F := F)).take 31) V (Proc.devRef .tc main_v10)
      = (StableHlo.unary main_v1 main_v10 (Host.negf : (⟨S512x512, .f32⟩ : BufTy).Contents (Elt F) → (⟨S512x512, .f32⟩ : BufTy).Contents (Elt F))).result (after ((hostOps0 (F := F)).take 31) V) (Proc.devRef .tc main_v10) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15]; repeat (rw [nary_result_ne]; rotate_left; decide)
  rw [stK14, unary_result]
  repeat (rw [unary_result_ne]; rotate_left; decide)

/-- After the chain, main_v11 holds what operation 15 computes from the contents after the chain. -/
theorem fin15 (V : Valuation τ sig (Elt F)) :
    after ((hostOps0 (F := F)).take 31) V (Proc.devRef .tc main_v11)
      = (StableHlo.nary ![main_v2, main_v3, main_v0, main_v10] main_v11 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 31) V) (Proc.devRef .tc main_v11) := by
  rw [nary4_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16]; repeat (rw [unary_result_ne]; rotate_left; decide)
  rw [stK15, nary4_result]
  repeat (rw [nary_result_ne]; rotate_left; decide)

/-- After the chain, main_v12 holds what operation 16 computes from the contents after the chain. -/
theorem fin16 (V : Valuation τ sig (Elt F)) :
    after ((hostOps0 (F := F)).take 31) V (Proc.devRef .tc main_v12)
      = (StableHlo.unary main_v2 main_v12 (Host.negf : (⟨S512x512, .f32⟩ : BufTy).Contents (Elt F) → (⟨S512x512, .f32⟩ : BufTy).Contents (Elt F))).result (after ((hostOps0 (F := F)).take 31) V) (Proc.devRef .tc main_v12) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17]; repeat (rw [nary_result_ne]; rotate_left; decide)
  rw [stK16, unary_result]
  repeat (rw [unary_result_ne]; rotate_left; decide)

/-- After the chain, main_v13 holds what operation 17 computes from the contents after the chain. -/
theorem fin17 (V : Valuation τ sig (Elt F)) :
    after ((hostOps0 (F := F)).take 31) V (Proc.devRef .tc main_v13)
      = (StableHlo.nary ![main_v3, main_v12, main_v1, main_v0] main_v13 (fun u => concatenate S512x2048 1 [⟨S512x512, u 0⟩, ⟨S512x512, u 1⟩, ⟨S512x512, u 2⟩, ⟨S512x512, u 3⟩] concatenates_S512x512_S512x512_S512x512_S512x512_S512x2048_d1)).result (after ((hostOps0 (F := F)).take 31) V) (Proc.devRef .tc main_v13) := by
  rw [nary4_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18]; repeat (rw [nary_result_ne]; rotate_left; decide)
  rw [stK17, nary4_result]
  repeat (rw [nary_result_ne]; rotate_left; decide)

/-- After the chain, main_v14 holds what operation 18 computes from the contents after the chain. -/
theorem fin18 (V : Valuation τ sig (Elt F)) :
    after ((hostOps0 (F := F)).take 31) V (Proc.devRef .tc main_v14)
      = (StableHlo.nary ![main_v7, main_v9, main_v11, main_v13] main_v14 (fun u => concatenate S2048x2048 0 [⟨S512x2048, u 0⟩, ⟨S512x2048, u 1⟩, ⟨S512x2048, u 2⟩, ⟨S512x2048, u 3⟩] concatenates_S512x2048_S512x2048_S512x2048_S512x2048_S2048x2048_d0)).result (after ((hostOps0 (F := F)).take 31) V) (Proc.devRef .tc main_v14) := by
  rw [nary4_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19]; repeat (rw [nullary_result_ne]; rotate_left; decide)
  rw [stK18, nary4_result]
  repeat (rw [nary_result_ne]; rotate_left; decide)

/-- After the chain, main_c_3 holds what operation 19 computes from the contents after the chain. -/
theorem fin19 (V : Valuation τ sig (Elt F)) :
    after ((hostOps0 (F := F)).take 31) V (Proc.devRef .tc main_c_3)
      = (StableHlo.nullary main_c_3 (constantI S_ 32 2048#32)).result (after ((hostOps0 (F := F)).take 31) V) (Proc.devRef .tc main_c_3) := by
  rw [nullary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20]; repeat (rw [unary_result_ne]; rotate_left; decide)
  rw [stK19, nullary_result]

/-- After the chain, main_v15 holds what operation 20 computes from the contents after the chain. -/
theorem fin20 (V : Valuation τ sig (Elt F)) :
    after ((hostOps0 (F := F)).take 31) V (Proc.devRef .tc main_v15)
      = (StableHlo.unary main_c_3 main_v15 (broadcastInDim S2048 ![] bcast_S_S2048 : (⟨S_, .i32⟩ : BufTy).Contents (Elt F) → (⟨S2048, .i32⟩ : BufTy).Contents (Elt F))).result (after ((hostOps0 (F := F)).take 31) V) (Proc.devRef .tc main_v15) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21]; repeat (rw [binary_result_ne]; rotate_left; decide)
  rw [stK20, unary_result]
  repeat (rw [unary_result_ne]; rotate_left; decide)

/-- After the chain, main_v16 holds what operation 21 computes from the contents after the chain. -/
theorem fin21 (V : Valuation τ sig (Elt F)) :
    after ((hostOps0 (F := F)).take 31) V (Proc.devRef .tc main_v16)
      = (StableHlo.binary main_c main_v15 main_v16 (addi : (⟨S2048, .i32⟩ : BufTy).Contents (Elt F) → (⟨S2048, .i32⟩ : BufTy).Contents (Elt F) → (⟨S2048, .i32⟩ : BufTy).Contents (Elt F))).result (after ((hostOps0 (F := F)).take 31) V) (Proc.devRef .tc main_v16) := by
  rw [binary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22]; repeat (rw [ternary_result_ne]; rotate_left; decide)
  rw [stK21, binary_result]
  repeat (rw [binary_result_ne]; rotate_left; decide)

/-- After the chain, main_v17 holds what operation 22 computes from the contents after the chain. -/
theorem fin22 (V : Valuation τ sig (Elt F)) :
    after ((hostOps0 (F := F)).take 31) V (Proc.devRef .tc main_v17)
      = (StableHlo.ternary main_c_0 main_v16 main_c main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((hostOps0 (F := F)).take 31) V) (Proc.devRef .tc main_v17) := by
  rw [ternary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23]; repeat (rw [unary_result_ne]; rotate_left; decide)
  rw [stK22, ternary_result]
  repeat (rw [ternary_result_ne]; rotate_left; decide)

/-- After the chain, main_v18 holds what operation 23 computes from the contents after the chain. -/
theorem fin23 (V : Valuation τ sig (Elt F)) :
    after ((hostOps0 (F := F)).take 31) V (Proc.devRef .tc main_v18)
      = (StableHlo.unary main_v17 main_v18 (broadcastInDim S2048x1 ![0] bcast_S2048_S2048x1_0 : (⟨S2048, .i32⟩ : BufTy).Contents (Elt F) → (⟨S2048x1, .i32⟩ : BufTy).Contents (Elt F))).result (after ((hostOps0 (F := F)).take 31) V) (Proc.devRef .tc main_v18) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24]; repeat (rw [binary_result_ne]; rotate_left; decide)
  rw [stK23, unary_result]
  repeat (rw [unary_result_ne]; rotate_left; decide)

/-- After the chain, main_v19 holds what operation 24 computes from the contents after the chain. -/
theorem fin24 (V : Valuation τ sig (Elt F)) :
    after ((hostOps0 (F := F)).take 31) V (Proc.devRef .tc main_v19)
      = (StableHlo.binary main_v14 main_v18 main_v19 ((fun x i => Host.gather gather_S2048x2048_S2048x1_S2048x2048_1_0_n_n_0_1_12048 x i) : (⟨S2048x2048, .f32⟩ : BufTy).Contents (Elt F) → (⟨S2048x1, .i32⟩ : BufTy).Contents (Elt F) → (⟨S2048x2048, .f32⟩ : BufTy).Contents (Elt F))).result (after ((hostOps0 (F := F)).take 31) V) (Proc.devRef .tc main_v19) := by
  rw [binary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25]; repeat (rw [nullary_result_ne]; rotate_left; decide)
  rw [stK24, binary_result]
  repeat (rw [binary_result_ne]; rotate_left; decide)

/-- After the chain, main_c_4 holds what operation 25 computes from the contents after the chain. -/
theorem fin25 (V : Valuation τ sig (Elt F)) :
    after ((hostOps0 (F := F)).take 31) V (Proc.devRef .tc main_c_4)
      = (StableHlo.nullary main_c_4 (constantI S_ 32 2048#32)).result (after ((hostOps0 (F := F)).take 31) V) (Proc.devRef .tc main_c_4) := by
  rw [nullary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26]; repeat (rw [unary_result_ne]; rotate_left; decide)
  rw [stK25, nullary_result]

/-- After the chain, main_v20 holds what operation 26 computes from the contents after the chain. -/
theorem fin26 (V : Valuation τ sig (Elt F)) :
    after ((hostOps0 (F := F)).take 31) V (Proc.devRef .tc main_v20)
      = (StableHlo.unary main_c_4 main_v20 (broadcastInDim S2048 ![] bcast_S_S2048 : (⟨S_, .i32⟩ : BufTy).Contents (Elt F) → (⟨S2048, .i32⟩ : BufTy).Contents (Elt F))).result (after ((hostOps0 (F := F)).take 31) V) (Proc.devRef .tc main_v20) := by
  rw [unary_result]
  rw [stK30]; repeat (rw [binary_result_ne]; rotate_left; decide)
  rw [stK29]; repeat (rw [unary_result_ne]; rotate_left; decide)
  rw [stK28]; repeat (rw [ternary_result_ne]; rotate_left; decide)
  rw [stK27]; repeat (rw [binary_result_ne]; rotate_left; decide)
  rw [stK26, unary_result]
  repeat (rw [unary_result_ne]; rotate_left; decide)

/-- After the chain, main_v21 holds what operation 27 computes from the contents after the chain. -/
theorem fin27 (V : Valuation τ sig (Elt F)) :
    after ((hostOps0 (F := F)).take 31) V (Proc.devRef .tc main_v21)
      = (StableHlo.binary main_c_1 main_v20 main_v21 (addi : (⟨S2048, .i32⟩ : BufTy).Contents (Elt F) → (⟨S2048, .i32⟩ : BufTy).Contents (Elt F) → (⟨S2048, .i32⟩ : BufTy).Contents (Elt F))).result (after ((hostOps0 (F := F)).take 31) V) (Proc.devRef .tc main_v21) := by
  rw [binary_result]
  rw [stK30]; repeat (rw [binary_result_ne]; rotate_left; decide)
  rw [stK29]; repeat (rw [unary_result_ne]; rotate_left; decide)
  rw [stK28]; repeat (rw [ternary_result_ne]; rotate_left; decide)
  rw [stK27, binary_result]
  repeat (rw [binary_result_ne]; rotate_left; decide)

/-- After the chain, main_v22 holds what operation 28 computes from the contents after the chain. -/
theorem fin28 (V : Valuation τ sig (Elt F)) :
    after ((hostOps0 (F := F)).take 31) V (Proc.devRef .tc main_v22)
      = (StableHlo.ternary main_c_2 main_v21 main_c_1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((hostOps0 (F := F)).take 31) V) (Proc.devRef .tc main_v22) := by
  rw [ternary_result]
  rw [stK30]; repeat (rw [binary_result_ne]; rotate_left; decide)
  rw [stK29]; repeat (rw [unary_result_ne]; rotate_left; decide)
  rw [stK28, ternary_result]
  repeat (rw [ternary_result_ne]; rotate_left; decide)

/-- After the chain, main_v23 holds what operation 29 computes from the contents after the chain. -/
theorem fin29 (V : Valuation τ sig (Elt F)) :
    after ((hostOps0 (F := F)).take 31) V (Proc.devRef .tc main_v23)
      = (StableHlo.unary main_v22 main_v23 (broadcastInDim S2048x1 ![0] bcast_S2048_S2048x1_0 : (⟨S2048, .i32⟩ : BufTy).Contents (Elt F) → (⟨S2048x1, .i32⟩ : BufTy).Contents (Elt F))).result (after ((hostOps0 (F := F)).take 31) V) (Proc.devRef .tc main_v23) := by
  rw [unary_result]
  rw [stK30]; repeat (rw [binary_result_ne]; rotate_left; decide)
  rw [stK29, unary_result]
  repeat (rw [unary_result_ne]; rotate_left; decide)

/-- After the chain, main_v24 holds what operation 30 computes from the contents after the chain. -/
theorem fin30 (V : Valuation τ sig (Elt F)) :
    after ((hostOps0 (F := F)).take 31) V (Proc.devRef .tc main_v24)
      = (StableHlo.binary main_v19 main_v23 main_v24 ((fun x i => Host.gather gather_S2048x2048_S2048x1_S2048x2048_0_1_n_n_1_1_20481 x i) : (⟨S2048x2048, .f32⟩ : BufTy).Contents (Elt F) → (⟨S2048x1, .i32⟩ : BufTy).Contents (Elt F) → (⟨S2048x2048, .f32⟩ : BufTy).Contents (Elt F))).result (after ((hostOps0 (F := F)).take 31) V) (Proc.devRef .tc main_v24) := by
  rw [binary_result]
  rw [stK30, binary_result]
  repeat (rw [binary_result_ne]; rotate_left; decide)

end Cert.KernelIdeal.Hand

end
-- ==== Proof.RefSsa.lean ====
/- The reference program's Hamilton chain, one operation at a time: each result buffer's contents after the chain are
   the operation's function of its operands' contents after the chain (no later operation writes a buffer again). -/
import proofs.«109850_j88905823027438_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- No operation of the chain writes the weight. -/
theorem pre_arg1 (W : Valuation τ sig (Elt F)) : after ((ops (F := F)).take 31) W (Proc.devRef .tc main_arg1) = W (Proc.devRef .tc main_arg1) :=
  after_of_forall_not_mem (b := Proc.devRef .tc main_arg1) _ _ (List.forall_iff_forall_mem.mp (by
    simp only [ops, List.take, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-- After the chain, main_c holds what operation 0 computes from the contents after the chain. -/
theorem fin0 (V : Valuation τ sig (Elt F)) :
    after ((ops (F := F)).take 31) V (Proc.devRef .tc main_c)
      = (StableHlo.nullary main_c (fun i => lit0 (S2048.rowMajor i))).result (after ((ops (F := F)).take 31) V) (Proc.devRef .tc main_c) := by
  rw [nullary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6]; repeat (rw [unary_result_ne]; rotate_left; decide)
  rw [stR5]; repeat (rw [unary_result_ne]; rotate_left; decide)
  rw [stR4]; repeat (rw [unary_result_ne]; rotate_left; decide)
  rw [stR3]; repeat (rw [nullary_result_ne]; rotate_left; decide)
  rw [stR2]; repeat (rw [nullary_result_ne]; rotate_left; decide)
  rw [stR1]; repeat (rw [nullary_result_ne]; rotate_left; decide)
  rw [stR0, nullary_result]

/-- After the chain, main_c_0 holds what operation 1 computes from the contents after the chain. -/
theorem fin1 (V : Valuation τ sig (Elt F)) :
    after ((ops (F := F)).take 31) V (Proc.devRef .tc main_c_0)
      = (StableHlo.nullary main_c_0 (constantI S2048 1 0#1)).result (after ((ops (F := F)).take 31) V) (Proc.devRef .tc main_c_0) := by
  rw [nullary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6]; repeat (rw [unary_result_ne]; rotate_left; decide)
  rw [stR5]; repeat (rw [unary_result_ne]; rotate_left; decide)
  rw [stR4]; repeat (rw [unary_result_ne]; rotate_left; decide)
  rw [stR3]; repeat (rw [nullary_result_ne]; rotate_left; decide)
  rw [stR2]; repeat (rw [nullary_result_ne]; rotate_left; decide)
  rw [stR1, nullary_result]

/-- After the chain, main_c_1 holds what operation 2 computes from the contents after the chain. -/
theorem fin2 (V : Valuation τ sig (Elt F)) :
    after ((ops (F := F)).take 31) V (Proc.devRef .tc main_c_1)
      = (StableHlo.nullary main_c_1 (fun i => lit1 (S2048.rowMajor i))).result (after ((ops (F := F)).take 31) V) (Proc.devRef .tc main_c_1) := by
  rw [nullary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6]; repeat (rw [unary_result_ne]; rotate_left; decide)
  rw [stR5]; repeat (rw [unary_result_ne]; rotate_left; decide)
  rw [stR4]; repeat (rw [unary_result_ne]; rotate_left; decide)
  rw [stR3]; repeat (rw [nullary_result_ne]; rotate_left; decide)
  rw [stR2, nullary_result]

/-- After the chain, main_c_2 holds what operation 3 computes from the contents after the chain. -/
theorem fin3 (V : Valuation τ sig (Elt F)) :
    after ((ops (F := F)).take 31) V (Proc.devRef .tc main_c_2)
      = (StableHlo.nullary main_c_2 (constantI S2048 1 0#1)).result (after ((ops (F := F)).take 31) V) (Proc.devRef .tc main_c_2) := by
  rw [nullary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6]; repeat (rw [unary_result_ne]; rotate_left; decide)
  rw [stR5]; repeat (rw [unary_result_ne]; rotate_left; decide)
  rw [stR4]; repeat (rw [unary_result_ne]; rotate_left; decide)
  rw [stR3, nullary_result]

/-- After the chain, main_v0 holds what operation 4 computes from the contents after the chain. -/
theorem fin4 (V : Valuation τ sig (Elt F)) :
    after ((ops (F := F)).take 31) V (Proc.devRef .tc main_v0)
      = (StableHlo.unary main_arg1 main_v0 ((extractStridedSlice S512x512 ![0, 0] · slices_S512x2048_S512x512_0_0) : (⟨S512x2048, .f32⟩ : BufTy).Contents (Elt F) → (⟨S512x512, .f32⟩ : BufTy).Contents (Elt F))).result (after ((ops (F := F)).take 31) V) (Proc.devRef .tc main_v0) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6]; repeat (rw [unary_result_ne]; rotate_left; decide)
  rw [stR5]; repeat (rw [unary_result_ne]; rotate_left; decide)
  rw [stR4, unary_result]
  repeat (rw [unary_result_ne]; rotate_left; decide)

/-- After the chain, main_v1 holds what operation 5 computes from the contents after the chain. -/
theorem fin5 (V : Valuation τ sig (Elt F)) :
    after ((ops (F := F)).take 31) V (Proc.devRef .tc main_v1)
      = (StableHlo.unary main_arg1 main_v1 ((extractStridedSlice S512x512 ![0, 512] · slices_S512x2048_S512x512_0_512) : (⟨S512x2048, .f32⟩ : BufTy).Contents (Elt F) → (⟨S512x512, .f32⟩ : BufTy).Contents (Elt F))).result (after ((ops (F := F)).take 31) V) (Proc.devRef .tc main_v1) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6]; repeat (rw [unary_result_ne]; rotate_left; decide)
  rw [stR5, unary_result]
  repeat (rw [unary_result_ne]; rotate_left; decide)

/-- After the chain, main_v2 holds what operation 6 computes from the contents after the chain. -/
theorem fin6 (V : Valuation τ sig (Elt F)) :
    after ((ops (F := F)).take 31) V (Proc.devRef .tc main_v2)
      = (StableHlo.unary main_arg1 main_v2 ((extractStridedSlice S512x512 ![0, 1024] · slices_S512x2048_S512x512_0_1024) : (⟨S512x2048, .f32⟩ : BufTy).Contents (Elt F) → (⟨S512x512, .f32⟩ : BufTy).Contents (Elt F))).result (after ((ops (F := F)).take 31) V) (Proc.devRef .tc main_v2) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7]; repeat (rw [unary_result_ne]; rotate_left; decide)
  rw [stR6, unary_result]
  repeat (rw [unary_result_ne]; rotate_left; decide)

/-- After the chain, main_v3 holds what operation 7 computes from the contents after the chain. -/
theorem fin7 (V : Valuation τ sig (Elt F)) :
    after ((ops (F := F)).take 31) V (Proc.devRef .tc main_v3)
      = (StableHlo.unary main_arg1 main_v3 ((extractStridedSlice S512x512 ![0, 1536] · slices_S512x2048_S512x512_0_1536) : (⟨S512x2048, .f32⟩ : BufTy).Contents (Elt F) → (⟨S512x512, .f32⟩ : BufTy).Contents (Elt F))).result (after ((ops (F := F)).take 31) V) (Proc.devRef .tc main_v3) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8]; repeat (rw [unary_result_ne]; rotate_left; decide)
  rw [stR7, unary_result]
  repeat (rw [unary_result_ne]; rotate_left; decide)

/-- After the chain, main_v4 holds what operation 8 computes from the contents after the chain. -/
theorem fin8 (V : Valuation τ sig (Elt F)) :
    after ((ops (F := F)).take 31) V (Proc.devRef .tc main_v4)
      = (StableHlo.unary main_v1 main_v4 (Host.negf : (⟨S512x512, .f32⟩ : BufTy).Contents (Elt F) → (⟨S512x512, .f32⟩ : BufTy).Contents (Elt F))).result (after ((ops (F := F)).take 31) V) (Proc.devRef .tc main_v4) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9]; repeat (rw [unary_result_ne]; rotate_left; decide)
  rw [stR8, unary_result]
  repeat (rw [unary_result_ne]; rotate_left; decide)

/-- After the chain, main_v5 holds what operation 9 computes from the contents after the chain. -/
theorem fin9 (V : Valuation τ sig (Elt F)) :
    after ((ops (F := F)).take 31) V (Proc.devRef .tc main_v5)
      = (StableHlo.unary main_v2 main_v5 (Host.negf : (⟨S512x512, .f32⟩ : BufTy).Contents (Elt F) → (⟨S512x512, .f32⟩ : BufTy).Contents (Elt F))).result (after ((ops (F := F)).take 31) V) (Proc.devRef .tc main_v5) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10]; repeat (rw [unary_result_ne]; rotate_left; decide)
  rw [stR9, unary_result]
  repeat (rw [unary_result_ne]; rotate_left; decide)

/-- After the chain, main_v6 holds what operation 10 computes from the contents after the chain. -/
theorem fin10 (V : Valuation τ sig (Elt F)) :
    after ((ops (F := F)).take 31) V (Proc.devRef .tc main_v6)
      = (StableHlo.unary main_v3 main_v6 (Host.negf : (⟨S512x512, .f32⟩ : BufTy).Contents (Elt F) → (⟨S512x512, .f32⟩ : BufTy).Contents (Elt F))).result (after ((ops (F := F)).take 31) V) (Proc.devRef .tc main_v6) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11]; repeat (rw [nary_result_ne]; rotate_left; decide)
  rw [stR10, unary_result]
  repeat (rw [unary_result_ne]; rotate_left; decide)

/-- After the chain, main_v7 holds what operation 11 computes from the contents after the chain. -/
theorem fin11 (V : Valuation τ sig (Elt F)) :
    after ((ops (F := F)).take 31) V (Proc.devRef .tc main_v7)
      = (StableHlo.nary ![main_v0, main_v4, main_v5, main_v6] main_v7 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 31) V) (Proc.devRef .tc main_v7) := by
  rw [nary4_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12]; repeat (rw [unary_result_ne]; rotate_left; decide)
  rw [stR11, nary4_result]
  repeat (rw [nary_result_ne]; rotate_left; decide)

/-- After the chain, main_v8 holds what operation 12 computes from the contents after the chain. -/
theorem fin12 (V : Valuation τ sig (Elt F)) :
    after ((ops (F := F)).take 31) V (Proc.devRef .tc main_v8)
      = (StableHlo.unary main_v3 main_v8 (Host.negf : (⟨S512x512, .f32⟩ : BufTy).Contents (Elt F) → (⟨S512x512, .f32⟩ : BufTy).Contents (Elt F))).result (after ((ops (F := F)).take 31) V) (Proc.devRef .tc main_v8) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13]; repeat (rw [nary_result_ne]; rotate_left; decide)
  rw [stR12, unary_result]
  repeat (rw [unary_result_ne]; rotate_left; decide)

/-- After the chain, main_v9 holds what operation 13 computes from the contents after the chain. -/
theorem fin13 (V : Valuation τ sig (Elt F)) :
    after ((ops (F := F)).take 31) V (Proc.devRef .tc main_v9)
      = (StableHlo.nary ![main_v1, main_v0, main_v8, main_v2] main_v9 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 31) V) (Proc.devRef .tc main_v9) := by
  rw [nary4_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14]; repeat (rw [unary_result_ne]; rotate_left; decide)
  rw [stR13, nary4_result]
  repeat (rw [nary_result_ne]; rotate_left; decide)

/-- After the chain, main_v10 holds what operation 14 computes from the contents after the chain. -/
theorem fin14 (V : Valuation τ sig (Elt F)) :
    after ((ops (F := F)).take 31) V (Proc.devRef .tc main_v10)
      = (StableHlo.unary main_v1 main_v10 (Host.negf : (⟨S512x512, .f32⟩ : BufTy).Contents (Elt F) → (⟨S512x512, .f32⟩ : BufTy).Contents (Elt F))).result (after ((ops (F := F)).take 31) V) (Proc.devRef .tc main_v10) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15]; repeat (rw [nary_result_ne]; rotate_left; decide)
  rw [stR14, unary_result]
  repeat (rw [unary_result_ne]; rotate_left; decide)

/-- After the chain, main_v11 holds what operation 15 computes from the contents after the chain. -/
theorem fin15 (V : Valuation τ sig (Elt F)) :
    after ((ops (F := F)).take 31) V (Proc.devRef .tc main_v11)
      = (StableHlo.nary ![main_v2, main_v3, main_v0, main_v10] main_v11 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 31) V) (Proc.devRef .tc main_v11) := by
  rw [nary4_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16]; repeat (rw [unary_result_ne]; rotate_left; decide)
  rw [stR15, nary4_result]
  repeat (rw [nary_result_ne]; rotate_left; decide)

/-- After the chain, main_v12 holds what operation 16 computes from the contents after the chain. -/
theorem fin16 (V : Valuation τ sig (Elt F)) :
    after ((ops (F := F)).take 31) V (Proc.devRef .tc main_v12)
      = (StableHlo.unary main_v2 main_v12 (Host.negf : (⟨S512x512, .f32⟩ : BufTy).Contents (Elt F) → (⟨S512x512, .f32⟩ : BufTy).Contents (Elt F))).result (after ((ops (F := F)).take 31) V) (Proc.devRef .tc main_v12) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17]; repeat (rw [nary_result_ne]; rotate_left; decide)
  rw [stR16, unary_result]
  repeat (rw [unary_result_ne]; rotate_left; decide)

/-- After the chain, main_v13 holds what operation 17 computes from the contents after the chain. -/
theorem fin17 (V : Valuation τ sig (Elt F)) :
    after ((ops (F := F)).take 31) V (Proc.devRef .tc main_v13)
      = (StableHlo.nary ![main_v3, main_v12, main_v1, main_v0] main_v13 (fun u => concatenate S512x2048 1 [⟨S512x512, u 0⟩, ⟨S512x512, u 1⟩, ⟨S512x512, u 2⟩, ⟨S512x512, u 3⟩] concatenates_S512x512_S512x512_S512x512_S512x512_S512x2048_d1)).result (after ((ops (F := F)).take 31) V) (Proc.devRef .tc main_v13) := by
  rw [nary4_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18]; repeat (rw [nary_result_ne]; rotate_left; decide)
  rw [stR17, nary4_result]
  repeat (rw [nary_result_ne]; rotate_left; decide)

/-- After the chain, main_v14 holds what operation 18 computes from the contents after the chain. -/
theorem fin18 (V : Valuation τ sig (Elt F)) :
    after ((ops (F := F)).take 31) V (Proc.devRef .tc main_v14)
      = (StableHlo.nary ![main_v7, main_v9, main_v11, main_v13] main_v14 (fun u => concatenate S2048x2048 0 [⟨S512x2048, u 0⟩, ⟨S512x2048, u 1⟩, ⟨S512x2048, u 2⟩, ⟨S512x2048, u 3⟩] concatenates_S512x2048_S512x2048_S512x2048_S512x2048_S2048x2048_d0)).result (after ((ops (F := F)).take 31) V) (Proc.devRef .tc main_v14) := by
  rw [nary4_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19]; repeat (rw [nullary_result_ne]; rotate_left; decide)
  rw [stR18, nary4_result]
  repeat (rw [nary_result_ne]; rotate_left; decide)

/-- After the chain, main_c_3 holds what operation 19 computes from the contents after the chain. -/
theorem fin19 (V : Valuation τ sig (Elt F)) :
    after ((ops (F := F)).take 31) V (Proc.devRef .tc main_c_3)
      = (StableHlo.nullary main_c_3 (constantI S_ 32 2048#32)).result (after ((ops (F := F)).take 31) V) (Proc.devRef .tc main_c_3) := by
  rw [nullary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20]; repeat (rw [unary_result_ne]; rotate_left; decide)
  rw [stR19, nullary_result]

/-- After the chain, main_v15 holds what operation 20 computes from the contents after the chain. -/
theorem fin20 (V : Valuation τ sig (Elt F)) :
    after ((ops (F := F)).take 31) V (Proc.devRef .tc main_v15)
      = (StableHlo.unary main_c_3 main_v15 (broadcastInDim S2048 ![] bcast_S_S2048 : (⟨S_, .i32⟩ : BufTy).Contents (Elt F) → (⟨S2048, .i32⟩ : BufTy).Contents (Elt F))).result (after ((ops (F := F)).take 31) V) (Proc.devRef .tc main_v15) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21]; repeat (rw [binary_result_ne]; rotate_left; decide)
  rw [stR20, unary_result]
  repeat (rw [unary_result_ne]; rotate_left; decide)

/-- After the chain, main_v16 holds what operation 21 computes from the contents after the chain. -/
theorem fin21 (V : Valuation τ sig (Elt F)) :
    after ((ops (F := F)).take 31) V (Proc.devRef .tc main_v16)
      = (StableHlo.binary main_c main_v15 main_v16 (addi : (⟨S2048, .i32⟩ : BufTy).Contents (Elt F) → (⟨S2048, .i32⟩ : BufTy).Contents (Elt F) → (⟨S2048, .i32⟩ : BufTy).Contents (Elt F))).result (after ((ops (F := F)).take 31) V) (Proc.devRef .tc main_v16) := by
  rw [binary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22]; repeat (rw [ternary_result_ne]; rotate_left; decide)
  rw [stR21, binary_result]
  repeat (rw [binary_result_ne]; rotate_left; decide)

/-- After the chain, main_v17 holds what operation 22 computes from the contents after the chain. -/
theorem fin22 (V : Valuation τ sig (Elt F)) :
    after ((ops (F := F)).take 31) V (Proc.devRef .tc main_v17)
      = (StableHlo.ternary main_c_0 main_v16 main_c main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((ops (F := F)).take 31) V) (Proc.devRef .tc main_v17) := by
  rw [ternary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23]; repeat (rw [unary_result_ne]; rotate_left; decide)
  rw [stR22, ternary_result]
  repeat (rw [ternary_result_ne]; rotate_left; decide)

/-- After the chain, main_v18 holds what operation 23 computes from the contents after the chain. -/
theorem fin23 (V : Valuation τ sig (Elt F)) :
    after ((ops (F := F)).take 31) V (Proc.devRef .tc main_v18)
      = (StableHlo.unary main_v17 main_v18 (broadcastInDim S2048x1 ![0] bcast_S2048_S2048x1_0 : (⟨S2048, .i32⟩ : BufTy).Contents (Elt F) → (⟨S2048x1, .i32⟩ : BufTy).Contents (Elt F))).result (after ((ops (F := F)).take 31) V) (Proc.devRef .tc main_v18) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24]; repeat (rw [binary_result_ne]; rotate_left; decide)
  rw [stR23, unary_result]
  repeat (rw [unary_result_ne]; rotate_left; decide)

/-- After the chain, main_v19 holds what operation 24 computes from the contents after the chain. -/
theorem fin24 (V : Valuation τ sig (Elt F)) :
    after ((ops (F := F)).take 31) V (Proc.devRef .tc main_v19)
      = (StableHlo.binary main_v14 main_v18 main_v19 ((fun x i => Host.gather gather_S2048x2048_S2048x1_S2048x2048_1_0_n_n_0_1_12048 x i) : (⟨S2048x2048, .f32⟩ : BufTy).Contents (Elt F) → (⟨S2048x1, .i32⟩ : BufTy).Contents (Elt F) → (⟨S2048x2048, .f32⟩ : BufTy).Contents (Elt F))).result (after ((ops (F := F)).take 31) V) (Proc.devRef .tc main_v19) := by
  rw [binary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25]; repeat (rw [nullary_result_ne]; rotate_left; decide)
  rw [stR24, binary_result]
  repeat (rw [binary_result_ne]; rotate_left; decide)

/-- After the chain, main_c_4 holds what operation 25 computes from the contents after the chain. -/
theorem fin25 (V : Valuation τ sig (Elt F)) :
    after ((ops (F := F)).take 31) V (Proc.devRef .tc main_c_4)
      = (StableHlo.nullary main_c_4 (constantI S_ 32 2048#32)).result (after ((ops (F := F)).take 31) V) (Proc.devRef .tc main_c_4) := by
  rw [nullary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26]; repeat (rw [unary_result_ne]; rotate_left; decide)
  rw [stR25, nullary_result]

/-- After the chain, main_v20 holds what operation 26 computes from the contents after the chain. -/
theorem fin26 (V : Valuation τ sig (Elt F)) :
    after ((ops (F := F)).take 31) V (Proc.devRef .tc main_v20)
      = (StableHlo.unary main_c_4 main_v20 (broadcastInDim S2048 ![] bcast_S_S2048 : (⟨S_, .i32⟩ : BufTy).Contents (Elt F) → (⟨S2048, .i32⟩ : BufTy).Contents (Elt F))).result (after ((ops (F := F)).take 31) V) (Proc.devRef .tc main_v20) := by
  rw [unary_result]
  rw [stR30]; repeat (rw [binary_result_ne]; rotate_left; decide)
  rw [stR29]; repeat (rw [unary_result_ne]; rotate_left; decide)
  rw [stR28]; repeat (rw [ternary_result_ne]; rotate_left; decide)
  rw [stR27]; repeat (rw [binary_result_ne]; rotate_left; decide)
  rw [stR26, unary_result]
  repeat (rw [unary_result_ne]; rotate_left; decide)

/-- After the chain, main_v21 holds what operation 27 computes from the contents after the chain. -/
theorem fin27 (V : Valuation τ sig (Elt F)) :
    after ((ops (F := F)).take 31) V (Proc.devRef .tc main_v21)
      = (StableHlo.binary main_c_1 main_v20 main_v21 (addi : (⟨S2048, .i32⟩ : BufTy).Contents (Elt F) → (⟨S2048, .i32⟩ : BufTy).Contents (Elt F) → (⟨S2048, .i32⟩ : BufTy).Contents (Elt F))).result (after ((ops (F := F)).take 31) V) (Proc.devRef .tc main_v21) := by
  rw [binary_result]
  rw [stR30]; repeat (rw [binary_result_ne]; rotate_left; decide)
  rw [stR29]; repeat (rw [unary_result_ne]; rotate_left; decide)
  rw [stR28]; repeat (rw [ternary_result_ne]; rotate_left; decide)
  rw [stR27, binary_result]
  repeat (rw [binary_result_ne]; rotate_left; decide)

/-- After the chain, main_v22 holds what operation 28 computes from the contents after the chain. -/
theorem fin28 (V : Valuation τ sig (Elt F)) :
    after ((ops (F := F)).take 31) V (Proc.devRef .tc main_v22)
      = (StableHlo.ternary main_c_2 main_v21 main_c_1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))).result (after ((ops (F := F)).take 31) V) (Proc.devRef .tc main_v22) := by
  rw [ternary_result]
  rw [stR30]; repeat (rw [binary_result_ne]; rotate_left; decide)
  rw [stR29]; repeat (rw [unary_result_ne]; rotate_left; decide)
  rw [stR28, ternary_result]
  repeat (rw [ternary_result_ne]; rotate_left; decide)

/-- After the chain, main_v23 holds what operation 29 computes from the contents after the chain. -/
theorem fin29 (V : Valuation τ sig (Elt F)) :
    after ((ops (F := F)).take 31) V (Proc.devRef .tc main_v23)
      = (StableHlo.unary main_v22 main_v23 (broadcastInDim S2048x1 ![0] bcast_S2048_S2048x1_0 : (⟨S2048, .i32⟩ : BufTy).Contents (Elt F) → (⟨S2048x1, .i32⟩ : BufTy).Contents (Elt F))).result (after ((ops (F := F)).take 31) V) (Proc.devRef .tc main_v23) := by
  rw [unary_result]
  rw [stR30]; repeat (rw [binary_result_ne]; rotate_left; decide)
  rw [stR29, unary_result]
  repeat (rw [unary_result_ne]; rotate_left; decide)

/-- After the chain, main_v24 holds what operation 30 computes from the contents after the chain. -/
theorem fin30 (V : Valuation τ sig (Elt F)) :
    after ((ops (F := F)).take 31) V (Proc.devRef .tc main_v24)
      = (StableHlo.binary main_v19 main_v23 main_v24 ((fun x i => Host.gather gather_S2048x2048_S2048x1_S2048x2048_0_1_n_n_1_1_20481 x i) : (⟨S2048x2048, .f32⟩ : BufTy).Contents (Elt F) → (⟨S2048x1, .i32⟩ : BufTy).Contents (Elt F) → (⟨S2048x2048, .f32⟩ : BufTy).Contents (Elt F))).result (after ((ops (F := F)).take 31) V) (Proc.devRef .tc main_v24) := by
  rw [binary_result]
  rw [stR30, binary_result]
  repeat (rw [binary_result_ne]; rotate_left; decide)

end Cert.ReferenceIdeal.Hand

end
-- ==== Proof.HamEq.lean ====
/- The two programs build the same permuted Hamilton matrix. Their first thirty-one host operations are the same
   operations in the same order — four slices of the weight, their negations, four row blocks concatenated from them,
   the blocks stacked, and two gathers through the same fixed index tables. Buffer by buffer, in the order the
   operations define them: the same operation applied to operands that agree gives results that agree. -/
import proofs.«109850_j88905823027438_1_alg».proof.Proof.IdealSsa
import proofs.«109850_j88905823027438_1_alg».proof.Proof.RefSsa

set_option maxRecDepth 65536

noncomputable section

namespace Cert.MatBias

open Idealize.ShloMosaic Idealize.ShloMosaic.TcCoe Idealize.SL.Sem Idealize.ShloMosaic.StableHlo

variable {F : FTy → Type} [FloatOps F]

/-- The weight itself: no operation of either chain writes it. -/
theorem eq_arg1 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    (after ((Cert.KernelIdeal.Gen.hostOps0 (F := F)).take 31) VK (Proc.devRef .tc Cert.KernelIdeal.main_arg1) : FVec F Cert.KernelIdeal.S512x2048 .f32) = after ((Cert.ReferenceIdeal.Hand.ops (F := F)).take 31) VR (Proc.devRef .tc Cert.ReferenceIdeal.main_arg1) := by
  rw [Cert.KernelIdeal.Hand.pre_arg1, Cert.ReferenceIdeal.Hand.pre_arg1]; exact h

/-- Operation 0: the two programs' main_c agree. -/
theorem eq0 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_c) = after ((Cert.ReferenceIdeal.Hand.ops (F := F)).take 31) VR (Proc.devRef .tc Cert.ReferenceIdeal.main_c) := by
  rw [Cert.KernelIdeal.Hand.fin0 VK, Cert.ReferenceIdeal.Hand.fin0 VR, nullary_result, nullary_result]
  all_goals rfl

/-- Operation 1: the two programs' main_c_0 agree. -/
theorem eq1 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_c_0) = after ((Cert.ReferenceIdeal.Hand.ops (F := F)).take 31) VR (Proc.devRef .tc Cert.ReferenceIdeal.main_c_0) := by
  rw [Cert.KernelIdeal.Hand.fin1 VK, Cert.ReferenceIdeal.Hand.fin1 VR, nullary_result, nullary_result]
  all_goals rfl

/-- Operation 2: the two programs' main_c_1 agree. -/
theorem eq2 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_c_1) = after ((Cert.ReferenceIdeal.Hand.ops (F := F)).take 31) VR (Proc.devRef .tc Cert.ReferenceIdeal.main_c_1) := by
  rw [Cert.KernelIdeal.Hand.fin2 VK, Cert.ReferenceIdeal.Hand.fin2 VR, nullary_result, nullary_result]
  all_goals rfl

/-- Operation 3: the two programs' main_c_2 agree. -/
theorem eq3 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_c_2) = after ((Cert.ReferenceIdeal.Hand.ops (F := F)).take 31) VR (Proc.devRef .tc Cert.ReferenceIdeal.main_c_2) := by
  rw [Cert.KernelIdeal.Hand.fin3 VK, Cert.ReferenceIdeal.Hand.fin3 VR, nullary_result, nullary_result]
  all_goals rfl

/-- Operation 4: the two programs' main_v0 agree. -/
theorem eq4 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v0) = after ((Cert.ReferenceIdeal.Hand.ops (F := F)).take 31) VR (Proc.devRef .tc Cert.ReferenceIdeal.main_v0) := by
  rw [Cert.KernelIdeal.Hand.fin4 VK, Cert.ReferenceIdeal.Hand.fin4 VR, unary_result, unary_result, eq_arg1 VK VR h]
  all_goals rfl

/-- Operation 5: the two programs' main_v1 agree. -/
theorem eq5 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v1) = after ((Cert.ReferenceIdeal.Hand.ops (F := F)).take 31) VR (Proc.devRef .tc Cert.ReferenceIdeal.main_v1) := by
  rw [Cert.KernelIdeal.Hand.fin5 VK, Cert.ReferenceIdeal.Hand.fin5 VR, unary_result, unary_result, eq_arg1 VK VR h]
  all_goals rfl

/-- Operation 6: the two programs' main_v2 agree. -/
theorem eq6 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v2) = after ((Cert.ReferenceIdeal.Hand.ops (F := F)).take 31) VR (Proc.devRef .tc Cert.ReferenceIdeal.main_v2) := by
  rw [Cert.KernelIdeal.Hand.fin6 VK, Cert.ReferenceIdeal.Hand.fin6 VR, unary_result, unary_result, eq_arg1 VK VR h]
  all_goals rfl

/-- Operation 7: the two programs' main_v3 agree. -/
theorem eq7 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v3) = after ((Cert.ReferenceIdeal.Hand.ops (F := F)).take 31) VR (Proc.devRef .tc Cert.ReferenceIdeal.main_v3) := by
  rw [Cert.KernelIdeal.Hand.fin7 VK, Cert.ReferenceIdeal.Hand.fin7 VR, unary_result, unary_result, eq_arg1 VK VR h]
  all_goals rfl

/-- Operation 8: the two programs' main_v4 agree. -/
theorem eq8 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v4) = after ((Cert.ReferenceIdeal.Hand.ops (F := F)).take 31) VR (Proc.devRef .tc Cert.ReferenceIdeal.main_v4) := by
  rw [Cert.KernelIdeal.Hand.fin8 VK, Cert.ReferenceIdeal.Hand.fin8 VR, unary_result, unary_result, eq5 VK VR h]
  all_goals rfl

/-- Operation 9: the two programs' main_v5 agree. -/
theorem eq9 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v5) = after ((Cert.ReferenceIdeal.Hand.ops (F := F)).take 31) VR (Proc.devRef .tc Cert.ReferenceIdeal.main_v5) := by
  rw [Cert.KernelIdeal.Hand.fin9 VK, Cert.ReferenceIdeal.Hand.fin9 VR, unary_result, unary_result, eq6 VK VR h]
  all_goals rfl

/-- Operation 10: the two programs' main_v6 agree. -/
theorem eq10 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v6) = after ((Cert.ReferenceIdeal.Hand.ops (F := F)).take 31) VR (Proc.devRef .tc Cert.ReferenceIdeal.main_v6) := by
  rw [Cert.KernelIdeal.Hand.fin10 VK, Cert.ReferenceIdeal.Hand.fin10 VR, unary_result, unary_result, eq7 VK VR h]
  all_goals rfl

/-- Operation 11: the two programs' main_v7 agree. -/
theorem eq11 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v7) = after ((Cert.ReferenceIdeal.Hand.ops (F := F)).take 31) VR (Proc.devRef .tc Cert.ReferenceIdeal.main_v7) := by
  rw [Cert.KernelIdeal.Hand.fin11 VK, Cert.ReferenceIdeal.Hand.fin11 VR, nary4_result, nary4_result, eq4 VK VR h, eq8 VK VR h, eq9 VK VR h, eq10 VK VR h]
  all_goals rfl

/-- Operation 12: the two programs' main_v8 agree. -/
theorem eq12 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v8) = after ((Cert.ReferenceIdeal.Hand.ops (F := F)).take 31) VR (Proc.devRef .tc Cert.ReferenceIdeal.main_v8) := by
  rw [Cert.KernelIdeal.Hand.fin12 VK, Cert.ReferenceIdeal.Hand.fin12 VR, unary_result, unary_result, eq7 VK VR h]
  all_goals rfl

/-- Operation 13: the two programs' main_v9 agree. -/
theorem eq13 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v9) = after ((Cert.ReferenceIdeal.Hand.ops (F := F)).take 31) VR (Proc.devRef .tc Cert.ReferenceIdeal.main_v9) := by
  rw [Cert.KernelIdeal.Hand.fin13 VK, Cert.ReferenceIdeal.Hand.fin13 VR, nary4_result, nary4_result, eq5 VK VR h, eq4 VK VR h, eq12 VK VR h, eq6 VK VR h]
  all_goals rfl

/-- Operation 14: the two programs' main_v10 agree. -/
theorem eq14 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v10) = after ((Cert.ReferenceIdeal.Hand.ops (F := F)).take 31) VR (Proc.devRef .tc Cert.ReferenceIdeal.main_v10) := by
  rw [Cert.KernelIdeal.Hand.fin14 VK, Cert.ReferenceIdeal.Hand.fin14 VR, unary_result, unary_result, eq5 VK VR h]
  all_goals rfl

/-- Operation 15: the two programs' main_v11 agree. -/
theorem eq15 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v11) = after ((Cert.ReferenceIdeal.Hand.ops (F := F)).take 31) VR (Proc.devRef .tc Cert.ReferenceIdeal.main_v11) := by
  rw [Cert.KernelIdeal.Hand.fin15 VK, Cert.ReferenceIdeal.Hand.fin15 VR, nary4_result, nary4_result, eq6 VK VR h, eq7 VK VR h, eq4 VK VR h, eq14 VK VR h]
  all_goals rfl

/-- Operation 16: the two programs' main_v12 agree. -/
theorem eq16 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v12) = after ((Cert.ReferenceIdeal.Hand.ops (F := F)).take 31) VR (Proc.devRef .tc Cert.ReferenceIdeal.main_v12) := by
  rw [Cert.KernelIdeal.Hand.fin16 VK, Cert.ReferenceIdeal.Hand.fin16 VR, unary_result, unary_result, eq6 VK VR h]
  all_goals rfl

/-- Operation 17: the two programs' main_v13 agree. -/
theorem eq17 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v13) = after ((Cert.ReferenceIdeal.Hand.ops (F := F)).take 31) VR (Proc.devRef .tc Cert.ReferenceIdeal.main_v13) := by
  rw [Cert.KernelIdeal.Hand.fin17 VK, Cert.ReferenceIdeal.Hand.fin17 VR, nary4_result, nary4_result, eq7 VK VR h, eq16 VK VR h, eq5 VK VR h, eq4 VK VR h]
  all_goals rfl

/-- Operation 18: the two programs' main_v14 agree. -/
theorem eq18 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v14) = after ((Cert.ReferenceIdeal.Hand.ops (F := F)).take 31) VR (Proc.devRef .tc Cert.ReferenceIdeal.main_v14) := by
  rw [Cert.KernelIdeal.Hand.fin18 VK, Cert.ReferenceIdeal.Hand.fin18 VR, nary4_result, nary4_result, eq11 VK VR h, eq13 VK VR h, eq15 VK VR h, eq17 VK VR h]
  all_goals rfl

/-- Operation 19: the two programs' main_c_3 agree. -/
theorem eq19 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_c_3) = after ((Cert.ReferenceIdeal.Hand.ops (F := F)).take 31) VR (Proc.devRef .tc Cert.ReferenceIdeal.main_c_3) := by
  rw [Cert.KernelIdeal.Hand.fin19 VK, Cert.ReferenceIdeal.Hand.fin19 VR, nullary_result, nullary_result]
  all_goals rfl

/-- Operation 20: the two programs' main_v15 agree. -/
theorem eq20 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v15) = after ((Cert.ReferenceIdeal.Hand.ops (F := F)).take 31) VR (Proc.devRef .tc Cert.ReferenceIdeal.main_v15) := by
  rw [Cert.KernelIdeal.Hand.fin20 VK, Cert.ReferenceIdeal.Hand.fin20 VR, unary_result, unary_result, eq19 VK VR h]
  all_goals rfl

/-- Operation 21: the two programs' main_v16 agree. -/
theorem eq21 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v16) = after ((Cert.ReferenceIdeal.Hand.ops (F := F)).take 31) VR (Proc.devRef .tc Cert.ReferenceIdeal.main_v16) := by
  rw [Cert.KernelIdeal.Hand.fin21 VK, Cert.ReferenceIdeal.Hand.fin21 VR, binary_result, binary_result, eq0 VK VR h, eq20 VK VR h]
  all_goals rfl

/-- Operation 22: the two programs' main_v17 agree. -/
theorem eq22 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v17) = after ((Cert.ReferenceIdeal.Hand.ops (F := F)).take 31) VR (Proc.devRef .tc Cert.ReferenceIdeal.main_v17) := by
  rw [Cert.KernelIdeal.Hand.fin22 VK, Cert.ReferenceIdeal.Hand.fin22 VR, ternary_result, ternary_result, eq1 VK VR h, eq21 VK VR h, eq0 VK VR h]
  all_goals rfl

/-- Operation 23: the two programs' main_v18 agree. -/
theorem eq23 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v18) = after ((Cert.ReferenceIdeal.Hand.ops (F := F)).take 31) VR (Proc.devRef .tc Cert.ReferenceIdeal.main_v18) := by
  rw [Cert.KernelIdeal.Hand.fin23 VK, Cert.ReferenceIdeal.Hand.fin23 VR, unary_result, unary_result, eq22 VK VR h]
  all_goals rfl

/-- Operation 24: the two programs' main_v19 agree. -/
theorem eq24 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v19) = after ((Cert.ReferenceIdeal.Hand.ops (F := F)).take 31) VR (Proc.devRef .tc Cert.ReferenceIdeal.main_v19) := by
  rw [Cert.KernelIdeal.Hand.fin24 VK, Cert.ReferenceIdeal.Hand.fin24 VR, binary_result, binary_result, eq18 VK VR h, eq23 VK VR h]
  all_goals rfl

/-- Operation 25: the two programs' main_c_4 agree. -/
theorem eq25 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_c_4) = after ((Cert.ReferenceIdeal.Hand.ops (F := F)).take 31) VR (Proc.devRef .tc Cert.ReferenceIdeal.main_c_4) := by
  rw [Cert.KernelIdeal.Hand.fin25 VK, Cert.ReferenceIdeal.Hand.fin25 VR, nullary_result, nullary_result]
  all_goals rfl

/-- Operation 26: the two programs' main_v20 agree. -/
theorem eq26 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v20) = after ((Cert.ReferenceIdeal.Hand.ops (F := F)).take 31) VR (Proc.devRef .tc Cert.ReferenceIdeal.main_v20) := by
  rw [Cert.KernelIdeal.Hand.fin26 VK, Cert.ReferenceIdeal.Hand.fin26 VR, unary_result, unary_result, eq25 VK VR h]
  all_goals rfl

/-- Operation 27: the two programs' main_v21 agree. -/
theorem eq27 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v21) = after ((Cert.ReferenceIdeal.Hand.ops (F := F)).take 31) VR (Proc.devRef .tc Cert.ReferenceIdeal.main_v21) := by
  rw [Cert.KernelIdeal.Hand.fin27 VK, Cert.ReferenceIdeal.Hand.fin27 VR, binary_result, binary_result, eq2 VK VR h, eq26 VK VR h]
  all_goals rfl

/-- Operation 28: the two programs' main_v22 agree. -/
theorem eq28 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v22) = after ((Cert.ReferenceIdeal.Hand.ops (F := F)).take 31) VR (Proc.devRef .tc Cert.ReferenceIdeal.main_v22) := by
  rw [Cert.KernelIdeal.Hand.fin28 VK, Cert.ReferenceIdeal.Hand.fin28 VR, ternary_result, ternary_result, eq3 VK VR h, eq27 VK VR h, eq2 VK VR h]
  all_goals rfl

/-- Operation 29: the two programs' main_v23 agree. -/
theorem eq29 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v23) = after ((Cert.ReferenceIdeal.Hand.ops (F := F)).take 31) VR (Proc.devRef .tc Cert.ReferenceIdeal.main_v23) := by
  rw [Cert.KernelIdeal.Hand.fin29 VK, Cert.ReferenceIdeal.Hand.fin29 VR, unary_result, unary_result, eq28 VK VR h]
  all_goals rfl

/-- Operation 30: the two programs' main_v24 agree. -/
theorem eq30 (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    after ((Cert.KernelIdeal.Gen.hostOps0 (F := F)).take 31) VK (Proc.devRef .tc Cert.KernelIdeal.main_v24) = after ((Cert.ReferenceIdeal.Hand.ops (F := F)).take 31) VR (Proc.devRef .tc Cert.ReferenceIdeal.main_v24) := by
  rw [Cert.KernelIdeal.Hand.fin30 VK, Cert.ReferenceIdeal.Hand.fin30 VR, binary_result, binary_result, eq24 VK VR h, eq29 VK VR h]
  all_goals rfl

/-- From launch contents that agree on the weight, the two Hamilton chains leave the same matrix. -/
theorem ham_eq (VK : Valuation Cert.KernelIdeal.τ Cert.KernelIdeal.sig (Elt F)) (VR : Valuation Cert.ReferenceIdeal.τ Cert.ReferenceIdeal.sig (Elt F))
    (h : (VK (Proc.devRef .tc Cert.KernelIdeal.main_arg1) : FVec F Cert.KernelIdeal.S512x2048 .f32) = VR (Proc.devRef .tc Cert.ReferenceIdeal.main_arg1)) :
    (Cert.KernelIdeal.Hand.hamAt VK : FVec F Cert.KernelIdeal.S2048x2048 .f32) = Cert.ReferenceIdeal.Hand.hamAt VR :=
  eq30 VK VR h

end Cert.MatBias

end
-- ==== Proof.Bridge.lean ====
/- The two idealized programs compute the same array. The kernel program ends with its output at the inner product
   of a row of the input with a column of the permuted Hamilton matrix, plus the bias entry (its operands are the input
   and that matrix narrowed to bf16 — the identity on extended reals — and the bias as one row); the reference ends with
   the same sum computed by one matrix product, plus the bias broadcast down the rows; and the two programs build the
   same matrix from the same weight. -/
import proofs.«109850_j88905823027438_1_alg».proof.Defs
import proofs.«109850_j88905823027438_1_alg».proof.Proof.IdealValue
import proofs.«109850_j88905823027438_1_alg».proof.Proof.IdealStages
import proofs.«109850_j88905823027438_1_alg».proof.Proof.IdealBias
import proofs.«109850_j88905823027438_1_alg».proof.Proof.RefRead
import proofs.«109850_j88905823027438_1_alg».proof.Proof.RefRun
import proofs.«109850_j88905823027438_1_alg».proof.Proof.HamEq
import proofs.«109850_j88905823027438_1_alg».proof.Proof.Gen.Pre_finite_inputs

noncomputable section

namespace Cert.MatBias

open Idealize.ShloMosaic Idealize.ShloMosaic.TcCoe Idealize.SL.Sem Idealize.ShloMosaic.ValueIdx

/-- The kernel program's run, with its result named. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28) = Cert.KernelIdeal.Hand.kernelOut m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨((h c).1 3).trans (Cert.KernelIdeal.Hand.final m c),
      ((h c).2 Cert.KernelIdeal.main_arg0 (Pipeline.mem_restRefs_of Cert.KernelIdeal.main_arg0 (by decide) (by decide))).trans (Cert.KernelIdeal.Hand.V_main_arg0 m c),
      ((h c).2 Cert.KernelIdeal.main_arg1 (Pipeline.mem_restRefs_of Cert.KernelIdeal.main_arg1 (by decide) (by decide))).trans (Cert.KernelIdeal.Hand.V_main_arg1 m c),
      ((h c).2 Cert.KernelIdeal.main_arg2 (Pipeline.mem_restRefs_of Cert.KernelIdeal.main_arg2 (by decide) (by decide))).trans (Cert.KernelIdeal.Hand.V_main_arg2 m c)⟩)
    (Cert.KernelIdeal.Hand.run_main (F := Ideal) m ρ)

set_option maxHeartbeats 1000000 in
/-- The algebraic claim: from memories that agree on the three arguments both programs run, and end with the same
    result. At row R and column n the reference's result is the inner product of the input's row R with the Hamilton
    matrix's column n plus the bias's entry n; the kernel program's operands are that input and that matrix (narrowing to
    bf16 is the identity on extended reals) and the bias as one row, and the two programs' matrices are the same. -/
theorem algebraic : Cert.algebraic_KernelIdeal_ReferenceIdeal := by
  intro m ρ m' ρ' _ hagree
  refine ⟨fun c => Cert.KernelIdeal.Hand.kernelOut m c, kernel_run m ρ, ?_⟩
  refine (θ_run Cert.ReferenceIdeal.defs _ _).mono (fun _ h c => ⟨(h c).1.trans ?_, (h c).2⟩)
    (Cert.ReferenceIdeal.Hand.run (F := Ideal) m' ρ')
  have hH : (Cert.KernelIdeal.Hand.hamAt (fun b => m (c, b)) : FVec Ideal Cert.KernelIdeal.S2048x2048 .f32)
      = Cert.ReferenceIdeal.Hand.hamAt (fun b => m' (c, b)) := ham_eq _ _ (hagree c).2.1.symm
  refine funext fun (jj : Cert.ReferenceIdeal.S8192x2048.Idx) => ?_
  obtain ⟨R, n, rfl⟩ : ∃ (R : Fin 8192) (n : Fin 2048), jj = ix2 R n := ⟨jj 0, jj 1, eq_ix2 jj⟩
  rw [Cert.ReferenceIdeal.Read.out_apply]
  show _ = (∑ kk : Fin 2048, (Cert.KernelIdeal.Hand.xarr m c (ix2 R kk) : EReal) * (Cert.KernelIdeal.Hand.harr m c (ix2 kk n) : EReal))
      + (Cert.KernelIdeal.Hand.barr m c (ix2 (0 : Fin 1) n) : EReal)
  simp only [Cert.KernelIdeal.Hand.xarr, Cert.KernelIdeal.Hand.harr, Cert.KernelIdeal.Hand.barr]
  rw [Cert.KernelIdeal.Hand.V_v25, Cert.KernelIdeal.Hand.V_v26, Cert.KernelIdeal.Hand.V_v27, hH, (hagree c).1, (hagree c).2.2]
  have hb := Cert.KernelIdeal.Bias.row_apply (F := Ideal)
    (m ((c.tc : Thread Cert.KernelIdeal.nD Cert.KernelIdeal.τ).loc Cert.KernelIdeal.main_arg2)) (0 : Fin 1) n
  generalize Cert.ReferenceIdeal.Hand.hamAt (fun b => m' (c, b)) = H
  simp only [Idealize.ShloMosaic.ValueIdx.truncf_apply]
  exact congrArg (_ + ·) hb.symm

end Cert.MatBias

end
-- ==== Proof.lean ====
/- The proof of `Cert.Claim`: a matmul-with-bias kernel (a 16 x 4 grid of 512 x 512 by 512 x 2048 block products
   accumulated in a scratch buffer, the bias added and the block stored at the last reduction step) against
   `input @ hamilton + bias`, both programs building the permuted Hamilton matrix by the same host operations.
   The three frames: the two kernel programs run block by block under an invariant that names the accumulator's contents
   after every grid point (Proof/BitsFrame.lean at the word level, Proof/IdealFrame.lean at the ideal instance); the
   reference is a straight line of host operations (Proof/RefRun.lean). The idealization rewrote nothing, so
   `preserves` is trivial. The value claim is Proof/Bridge.lean: at the ideal instance the four accumulated block
   products are the four quarters of one inner product (Proof/Spec.lean), so both programs end at the same array. -/
import proofs.«109850_j88905823027438_1_alg».proof.Defs
import proofs.«109850_j88905823027438_1_alg».proof.Proof.BitsFrame
import proofs.«109850_j88905823027438_1_alg».proof.Proof.IdealFrame
import proofs.«109850_j88905823027438_1_alg».proof.Proof.RefRun
import proofs.«109850_j88905823027438_1_alg».proof.Proof.Bridge
import proofs.«109850_j88905823027438_1_alg».proof.Proof.Gen.Kernel
import proofs.«109850_j88905823027438_1_alg».proof.Proof.Gen.KernelIdeal
import proofs.«109850_j88905823027438_1_alg».proof.Proof.Gen.ReferenceIdeal
import proofs.«109850_j88905823027438_1_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.MatBias.algebraic⟩

end Cert.Proof

end
